-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S2048x2048 : Shape := ⟨2, ![2048, 2048]⟩
abbrev S1024x2048 : Shape := ⟨2, ![1024, 2048]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 25
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S4096x1, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1, .i32⟩
  | .local _ .vmem, ⟨9, _⟩ => ⟨S2048x1, .i32⟩
  | .local _ .vmem, ⟨10, _⟩ => ⟨S1x1024, .i32⟩
  | .local _ .vmem, ⟨11, _⟩ => ⟨S1x1024, .i32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S4096x2048_S4096_d1 : S4096x2048.ReducesTo [1] S4096
  h_S_ : 0 < S_.numel
  shapeCasts_S4096_S4096x1 : S4096.ShapeCasts S4096x1
  shapeCasts_S4096_S1x4096 : S4096.ShapeCasts S1x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S2048x2048_S2048x1024_S2048x1024_1_0_0_1_n_n_wf : DotDims.WF S2048x2048 S2048x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .i32 = 32 ∨ (Rect.block (s := S4096x1) S2048x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .i32 = 32 ∨ (Rect.block (s := S1x4096) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S4096x1.size a
  hwx0_6 : ∀ i : grid0.Coords, EltTy.bits .f32 = 32 ∨ (Rect.block (s := S4096x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S4096x1.size a
  hwx0_7 : ∀ i : grid0.Coords, EltTy.bits .f32 = 32 ∨ (Rect.block (s := S4096x1) S2048x1.size (cc0_transform_7 i) (hinb0_7 i)).WholeWords (EltTy.packing .f32)

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S2048x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_call2_v0 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_call3_v0 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.BitsData.lean ====
/-
  The pairwise-distance mining kernel as a pipeline of 2 x 4 grid points: the data its correctness argument is
  stated over.

  The program first squares and row-sums X on the host (the squared norms, as a column and as a row) and casts X to
  bf16; the kernel region then visits the points (i, j), i < 2 a block of 2048 anchor rows, j < 4 a block of 1024
  candidate columns. At each point it forms the block of distances between the rows of block i and the rows of
  block j, masks it by label equality, takes the masked row maximum (hardest positive) and the masked row minimum
  (hardest negative) of the block, and folds both into two scratch columns of 2048 rows: the columns are reset to
  -inf / +inf when j = 0 and, when j = 3, copied into the two output blocks of row block i. So after point
  t = 4 i + j the scratch columns hold the running maximum / minimum over the column blocks 0..j of row block i.

  This module names those running columns (`scr`), the input blocks each point reads (`iblk`), what the two
  output windows are left holding, the invariant between points (the two scratch columns at the running values),
  and the shares: the bf16 copy of X is read through TWO windows (row blocks and column blocks of one array), each
  holding half of the array's share.
-/
import proofs.«100962_j67207648247978_1_alg».proof.Proof.Gen.Kernel.Skeleton
import proofs.«100962_j67207648247978_1_alg».proof.Proof.Gen.Kernel.Launch
import proofs.«100962_j67207648247978_1_alg».proof.Proof.Gen.Kernel.Points
import Idealize.ShloMosaic.Lib.Pipeline.FrameBody
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m (c, b)
/-- The same after the eight host operations before the region (cast, squares, row sums, reshapes). -/
abbrev VE (c : Dev nD) : Valuation τ sig (Elt F) := StableHlo.after hostOps0 (V₀ m c)
/-- Read at a TensorCore reference. -/
abbrev V (c : Dev nD) (b : Ref sig .tc) : Buf (Elt F) ((c : Thread nD τ).loc b) := VE m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running maximum and minimum columns -/

/-- The masked row maximum of the distance block at point `t`, folded into a column `prev`. -/
def posStep (c : Dev nD) (t : Fin cfg0.N) (prev : Vec F S2048x1 .f32) : Vec F S2048x1 .f32 :=
  k0_pay2 (k0_pay6 (iblk m c 0 t) (iblk m c 1 t) (iblk m c 2 t) (iblk m c 3 t)) (k0_pay7 (F := F) (iblk m c 4 t)) (k0_pay8 (F := F) (iblk m c 5 t)) prev
/-- The masked row minimum of the distance block at point `t`, folded into a column `prev`. -/
def negStep (c : Dev nD) (t : Fin cfg0.N) (prev : Vec F S2048x1 .f32) : Vec F S2048x1 .f32 :=
  k0_pay3 (k0_pay6 (iblk m c 0 t) (iblk m c 1 t) (iblk m c 2 t) (iblk m c 3 t)) (k0_pay7 (F := F) (iblk m c 4 t)) (k0_pay8 (F := F) (iblk m c 5 t)) prev

/-- What the two scratch columns hold after the body at position `n`: at a first column block (n ≡ 0 mod 4) the
    block's row maximum / minimum folded into the all -inf / all +inf column, else folded into what the point
    before left. -/
def scr (c : Dev nD) : (n : ℕ) → n < cfg0.N → Vec F S2048x1 .f32 × Vec F S2048x1 .f32
  | 0, hn => (posStep m c ⟨0, hn⟩ (k0_pay4 (F := F)), negStep m c ⟨0, hn⟩ (k0_pay5 (F := F)))
  | n + 1, hn =>
    if (n + 1) % 4 = 0 then (posStep m c ⟨n + 1, hn⟩ (k0_pay4 (F := F)), negStep m c ⟨n + 1, hn⟩ (k0_pay5 (F := F)))
    else (posStep m c ⟨n + 1, hn⟩ (scr c n (Nat.lt_of_succ_lt hn)).1, negStep m c ⟨n + 1, hn⟩ (scr c n (Nat.lt_of_succ_lt hn)).2)

/-- At a first column block the columns restart. -/
theorem scr_reset (c : Dev nD) (t : Fin cfg0.N) (h : t.val % 4 = 0) :
    scr m c t.val t.isLt = (posStep m c t (k0_pay4 (F := F)), negStep m c t (k0_pay5 (F := F))) := by
  obtain ⟨n, hn⟩ := t
  cases n with
  | zero => rfl
  | succ n => exact (if_pos h).trans rfl

/-- At a later column block they fold the block into what the point before left. -/
theorem scr_step (c : Dev nD) (t : Fin cfg0.N) (h : ¬ t.val % 4 = 0) :
    scr m c t.val t.isLt = (posStep m c t (scr m c (t.val - 1) (Nat.lt_of_le_of_lt (Nat.sub_le _ _) t.isLt)).1,
      negStep m c t (scr m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The memrefs the body is called with -/

abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1 .f32 := win0_7.stage (cfg0.slots t 7)
abbrev hs0_7 (t : Fin cfg0.N) : (ms0_7 t).IsWhole := hstage0_7 ((cfg0.slots t 7).cast nbuf0_7)
/-- The two scratch columns: whole scoped buffers of the kernel's own. -/
abbrev scM0 : Memref sig .tc .vmem S2048x1 .f32 := Memref.whole cc0_scratch0
abbrev scM1 : Memref sig .tc .vmem S2048x1 .f32 := Memref.whole cc0_scratch1

/-! ## The body's two conditions, decided over the grid -/

/-- `j = 0`: the columns are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)
/-- `j = 3`: the columns are copied out. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The inputs are never idle; the two outputs are idle, and not written back, exactly where `j ≠ 3`. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem idleAt_6 : ∀ t : Fin cfg0.N, ¬ condLast (grid0.coords t) → cfg0.idle 6 (grid0.coords t) = true := by decide +kernel
theorem idleAt_7 : ∀ t : Fin cfg0.N, ¬ condLast (grid0.coords t) → cfg0.idle 7 (grid0.coords t) = true := by decide +kernel
theorem liveAt_6 : ∀ t : Fin cfg0.N, condLast (grid0.coords t) → cfg0.idle 6 (grid0.coords t) = false := by decide +kernel
theorem liveAt_7 : ∀ t : Fin cfg0.N, condLast (grid0.coords t) → cfg0.idle 7 (grid0.coords t) = false := by decide +kernel
theorem noFlush_6 : ∀ t : Fin cfg0.N, ¬ condLast (grid0.coords t) → (cfg0.win 6).flush t = false := by decide +kernel
theorem noFlush_7 : ∀ t : Fin cfg0.N, ¬ condLast (grid0.coords t) → (cfg0.win 7).flush t = false := by decide +kernel

/-! ## The invariant between points and the proof data -/

/-- Before the first point the two scratch columns hold anything; before any later point, what the point before
    left in them. -/
def Phi (c : Dev nD) : (n : ℕ) → n ≤ cfg0.N → sProp 𝕄
  | 0, _ => Pipeline.scopedRest spec0 c
  | n + 1, hn => iprop(owns (c : Thread nD τ) scM0 fullShare ((scr m c n hn).1) ∗ owns (c : Thread nD τ) scM1 fullShare ((scr m c n hn).2))

theorem Phi_zero (c : Dev nD) (n : ℕ) (h : n ≤ cfg0.N) (hz : n = 0) : Phi m c n h = Pipeline.scopedRest spec0 c := by
  subst hz; rfl
theorem Phi_succ (c : Dev nD) (n : ℕ) (hn : n < cfg0.N) :
    Phi m c (n + 1) hn = iprop(owns (c : Thread nD τ) scM0 fullShare ((scr m c n hn).1) ∗ owns (c : Thread nD τ) scM1 fullShare ((scr m c n hn).2)) := rfl
theorem Phi_pos (c : Dev nD) (n : ℕ) (h : n ≤ cfg0.N) (hz : n ≠ 0) :
    Phi m c n h = iprop(owns (c : Thread nD τ) scM0 fullShare ((scr m c (n - 1) (by omega)).1) ∗ owns (c : Thread nD τ) scM1 fullShare ((scr m c (n - 1) (by omega)).2)) := by
  cases n with
  | zero => exact absurd rfl hz
  | succ n => rfl

/-- The two scratch columns at anything, one by one. -/
theorem Phi0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The proof data on core `c`: the arrays as the region finds them; each input's buffer left at its block, the
    two outputs' at the running columns (consulted only where j = 3, when the body has just copied them out); the
    invariant above; nothing owed; the bf16 array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (scr m c t.val t.isLt).1
    | ⟨7, _⟩ => (scr m c t.val t.isLt).2
  Φ t := Phi m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (scr m c t.val t.isLt).1 := by dsimp only [dats]
theorem after_7 (c : Dev nD) (t : Fin cfg0.N) : (dats m 0 c).after 7 t = (scr m c t.val t.isLt).2 := by dsimp only [dats]

/-- Each input's current staging buffer holds its block at every point, fetched there or not: an input not fetched
    at a point has the block index of the point before. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The host operations after the region, as one function of the two result columns -/

/-- The loss from the two columns: flatten both, subtract, add the margin, clamp at zero, sum, divide by the number of rows. -/
def tailVal (ap an : Vec F S4096x1 .f32) : Vec F S_ .f32 :=
  Host.divf
    (Host.reduceAdd
      (maximumf
        (addf (subf (shapeCast S4096 ap shapeCasts_S4096x1_S4096) (shapeCast S4096 an shapeCasts_S4096x1_S4096))
          (broadcastInDim S4096 ![] bcast_S_S4096 (constant S_ .f32 0x3E99999A#32)))
        (broadcastInDim S4096 ![] bcast_S_S4096 (constant S_ .f32 0x00000000#32)))
      (constant S_ .f32 0x00000000#32) reducesTo_S4096_S_d0 h_S_)
    (constant S_ .f32 0x45800000#32)

end Cert.Kernel.Hand

end
-- ==== Proof.BitsBody.lean ====
/-
  The kernel body at every grid point meets the proof data: from the six input blocks, the two scratch columns at
  the running values (at anything when j = 0, where the body resets them) and the two output buffers at anything,
  it leaves the scratch columns at the next running values, and, when j = 3, the output buffers at those values.
-/
import proofs.«100962_j67207648247978_1_alg».proof.Proof.BitsData
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Both literal offsets are zero. -/
private theorem hz : (![0, 0] : Fin 2 → Nat) = fun _ => 0 := funext fun a => by fin_cases a <;> rfl

/-- A column stored whole, last, reads back as the stored column, whatever was stored before. -/
private theorem read_writes_col {κ : Kind} {sp : Space} (v : View sig κ sp S2048x1 .f32) (f : v.ty.Contents (Elt F))
    (w : S2048x1.Idx → Elt F .f32) (L : List (View.Piece (Elt F) S2048x1 .f32)) :
    v.read (Elt F) (v.writes (Elt F) f ((⟨Rect.unit (s := S2048x1) ![0, 0] S2048x1.size inb_S2048x1_S2048x1_0_0, w⟩ : View.Piece (Elt F) S2048x1 .f32) :: L)) = w := by
  rw [View.read_writes_eq_canon _ _ _ (fun y => ⟨_, List.mem_cons_self, View.mem_set_unit_zero hz inb_S2048x1_S2048x1_0_0 y⟩),
    View.canon_cons_unit_zero hz]

/-- A point with 0 < j < 3: the block's masked row maximum / minimum is folded into the two columns; the output
    buffers are not touched. -/
private theorem run_mid (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : ¬ condFirst i) (hc1 : ¬ condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (y6 y7 p0 p1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ owns (c : Thread nD τ) arg10 fullShare p0 ∗ owns (c : Thread nD τ) arg11 fullShare p1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (k0_pay2 (k0_pay6 x0 x1 x2 x3) (k0_pay7 (F := F) x4) (k0_pay8 (F := F) x5) p0)
            ∗ owns (c : Thread nD τ) arg11 fullShare (k0_pay3 (k0_pay6 x0 x1 x2 x3) (k0_pay7 (F := F) x4) (k0_pay8 (F := F) x5) p1)) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-- A point with j = 0: the two columns are first reset to the all -inf / all +inf columns, whatever they held,
    then the block is folded in; the output buffers are not touched. -/
private theorem run_first (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : condFirst i) (hc1 : ¬ condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (y6 y7 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (k0_pay2 (k0_pay6 x0 x1 x2 x3) (k0_pay7 (F := F) x4) (k0_pay8 (F := F) x5) (k0_pay4 (F := F)))
            ∗ owns (c : Thread nD τ) arg11 fullShare (k0_pay3 (k0_pay6 x0 x1 x2 x3) (k0_pay7 (F := F) x4) (k0_pay8 (F := F) x5) (k0_pay5 (F := F)))) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-- A point with j = 3: the block is folded into the two columns, and the new columns are copied into the two
    output buffers, whatever those held. -/
private theorem run_last (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : ¬ condFirst i) (hc1 : condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (p0 p1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare p0 ∗ owns (c : Thread nD τ) arg11 fullShare p1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 (k0_pay6 x0 x1 x2 x3) (k0_pay7 (F := F) x4) (k0_pay8 (F := F) x5) p0) ∗ owns (c : Thread nD τ) arg9 fullShare (k0_pay3 (k0_pay6 x0 x1 x2 x3) (k0_pay7 (F := F) x4) (k0_pay8 (F := F) x5) p1)
            ∗ owns (c : Thread nD τ) arg10 fullShare (k0_pay2 (k0_pay6 x0 x1 x2 x3) (k0_pay7 (F := F) x4) (k0_pay8 (F := F) x5) p0)
            ∗ owns (c : Thread nD τ) arg11 fullShare (k0_pay3 (k0_pay6 x0 x1 x2 x3) (k0_pay7 (F := F) x4) (k0_pay8 (F := F) x5) p1)) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  isplitl [H9]
  · iexists _; isplitr; swap; · iexact H9
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- Before any point the two scratch columns are owned at some contents: before the first point of all by the
    region's entry, later at the running values, which a point with j = 0 does not read. -/
private theorem Phi_any (c : Dev nD) (t : Fin cfg0.N) :
    (dats m 0 c).Φ t.castSucc
      ⊢ iprop((∃ d, owns (c : Thread nD τ) scM0 fullShare d) ∗ (∃ d, owns (c : Thread nD τ) scM1 fullShare d)) := by
  rw [Phi_castSucc m c t]
  by_cases hz : t.val = 0
  · rw [Phi_zero m c _ _ hz, Phi0_eq]
  · rw [Phi_pos m c _ _ hz]
    iintro ⟨HS0, HS1⟩
    isplitl [HS0]
    · iexists _; iexact HS0
    iexists _; iexact HS1

set_option maxHeartbeats 4800000 in
/-- The body at any point. The six input buffers hold their blocks; the point's position in its row of column
    blocks (j = 0, 0 < j < 3, j = 3; the grid has no point with j = 0 and j = 3 at once) selects the case; the
    invariant hands over the two scratch columns (at anything where j = 0, else at the running values of the
    point before) and takes them back at this point's running values; where j ≠ 3 the two output buffers are
    idle and come back as found, where j = 3 they come back at the running values. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt_0 t], after_0]
  rw [show (dats m 0 c).leavesExact 1 t = owns (c : Thread nD τ) (ms0_1 t) fullShare ((dats m 0 c).after 1 t) from by
    unfold Dat.leavesExact; rw [liveAt_1 t], after_1]
  rw [show (dats m 0 c).leavesExact 2 t = owns (c : Thread nD τ) (ms0_2 t) fullShare ((dats m 0 c).after 2 t) from by
    unfold Dat.leavesExact; rw [liveAt_2 t], after_2]
  rw [show (dats m 0 c).leavesExact 3 t = owns (c : Thread nD τ) (ms0_3 t) fullShare ((dats m 0 c).after 3 t) from by
    unfold Dat.leavesExact; rw [liveAt_3 t], after_3]
  rw [show (dats m 0 c).leavesExact 4 t = owns (c : Thread nD τ) (ms0_4 t) fullShare ((dats m 0 c).after 4 t) from by
    unfold Dat.leavesExact; rw [liveAt_4 t], after_4]
  rw [show (dats m 0 c).leavesExact 5 t = owns (c : Thread nD τ) (ms0_5 t) fullShare ((dats m 0 c).after 5 t) from by
    unfold Dat.leavesExact; rw [liveAt_5 t], after_5]
  by_cases h0 : t.val % 4 = 0
  · -- j = 0
    have hc0 : condFirst (grid0.coords t) := (hcondFirst t).mpr h0
    have hc1 : ¬ condLast (grid0.coords t) := fun h => by have := (hcondLast t).mp h; omega
    rw [Dat.leavesExact_idle (dats m 0 c) 6 t (idleAt_6 t hc1) (noFlush_6 t hc1)]
    rw [Dat.leavesExact_idle (dats m 0 c) 7 t (idleAt_7 t hc1) (noFlush_7 t hc1)]
    rw [scr_reset m c t h0]; dsimp only
    unfold posStep negStep
    refine (sep_mono (Phi_any m c t) .rfl).trans ?_
    iintro ⟨⟨⟨%e0, HS0⟩, ⟨%e1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) ((dats m 0 c).before 6 t d6) ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hz : t.val ≠ 0 := fun h => h0 (by rw [h])
    have hc0 : ¬ condFirst (grid0.coords t) := fun h => h0 ((hcondFirst t).mp h)
    rw [Phi_castSucc m c t, Phi_pos m c _ _ hz]
    rw [scr_step m c t h0]; dsimp only
    by_cases h1 : t.val % 4 = 3
    · -- j = 3
      have hc1 : condLast (grid0.coords t) := (hcondLast t).mpr h1
      rw [show (dats m 0 c).leavesExact 6 t = owns (c : Thread nD τ) (ms0_6 t) fullShare ((dats m 0 c).after 6 t) from by
        unfold Dat.leavesExact; rw [liveAt_6 t hc1], after_6]
      rw [show (dats m 0 c).leavesExact 7 t = owns (c : Thread nD τ) (ms0_7 t) fullShare ((dats m 0 c).after 7 t) from by
        unfold Dat.leavesExact; rw [liveAt_7 t hc1], after_7]
      rw [scr_step m c t h0]; dsimp only
      unfold posStep negStep
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) (scr m c (t.val - 1) (Nat.lt_of_le_of_lt (Nat.sub_le _ _) t.isLt)).1 (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- 0 < j < 3
      have hc1 : ¬ condLast (grid0.coords t) := fun h => h1 ((hcondLast t).mp h)
      rw [Dat.leavesExact_idle (dats m 0 c) 6 t (idleAt_6 t hc1) (noFlush_6 t hc1)]
      rw [Dat.leavesExact_idle (dats m 0 c) 7 t (idleAt_7 t hc1) (noFlush_7 t hc1)]
      unfold posStep negStep
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) ((dats m 0 c).before 6 t d6) ((dats m 0 c).before 7 t d7) (scr m c (t.val - 1) (Nat.lt_of_le_of_lt (Nat.sub_le _ _) t.isLt)).1 (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The whole program's run: the eight host operations, the kernel region, the thirteen host operations after it.
  Every weakly fair execution terminates; the result buffer ends at the loss computed from the two columns the region
  leaves, and the two arguments end as launched.
-/
import proofs.«100962_j67207648247978_1_alg».proof.Proof.BitsBody
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Levels, tables, and what a core carries beside its buffers -/

/-- The cores owe one another nothing, so no pair of cells carries a level. -/
private abbrev L : GSem nD τ sig → Finset Unit := fun _ => ∅
private abbrev lv : GSem nD τ sig → Unit → ℕ := fun _ _ => 0
/-- The kernel prefetches no table: the admissible contents are the trivial ones. -/
private abbrev adm : (p : Fin 1) → (pcfgs (F := F) p).Adm := fun p => (cfgs p).toPCfg_adm

/-- Beside the buffers a core carries that it owes nothing. -/
private abbrev R (c : Dev nD) : sProp 𝕄 := iprop(∃ W, owes (c : Thread nD τ) (0 : CellTallies nD τ sig Unit) W)

/-- The TensorCore's unscoped buffers, as device buffers: the set every host operation runs within. -/
private abbrev uc : Finset (DevRef τ sig) := Pipeline.ucRefs τ sig

/-! ## The arrays after the region -/

/-- The arrays when the region is left: the two result arrays at what the write-backs made of them, every other
    buffer as the region found it. -/
private def V1 (c : Dev nD) : Valuation τ sig (Elt F) :=
  Function.update (Function.update (VE m c) (Proc.devRef .tc main_v7_0) ((dats m 0 c).arrAt 6 cfg0.N))
    (Proc.devRef .tc main_v7_1) ((dats m 0 c).arrAt 7 cfg0.N)

private theorem V1_v7_1 (c : Dev nD) : V1 m c (Proc.devRef .tc main_v7_1) = (dats m 0 c).arrAt 7 cfg0.N := by
  unfold V1; rw [Function.update_self]

private theorem V1_v7_0 (c : Dev nD) : V1 m c (Proc.devRef .tc main_v7_0) = (dats m 0 c).arrAt 6 cfg0.N := by
  unfold V1
  rw [Function.update_of_ne (StableHlo.devRef_ne_of_ne (by decide)), Function.update_self]

/-- Any other buffer is as the region found it. -/
private theorem V1_of_ne (c : Dev nD) (b : Ref sig .tc) (h0 : b ≠ main_v7_0) (h1 : b ≠ main_v7_1) :
    V1 m c (Proc.devRef .tc b) = VE m c (Proc.devRef .tc b) := by
  unfold V1
  rw [Function.update_of_ne (StableHlo.devRef_ne_of_ne h1), Function.update_of_ne (StableHlo.devRef_ne_of_ne h0)]

/-! ## The windows' arrays: seven buffers behind eight windows

Windows 0 and 1 both read the bf16 copy of X, each at half of its share; the other six windows each hold their own
array whole. -/

/-- The distinct buffers behind the windows' arrays, one by one. -/
private theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v0, main_v3, main_v4, main_v5, main_v6, main_v7_0, main_v7_1] (by decide) (by decide) _

/-- The eight windows' arrays at contents read off one valuation, one by one: the first two are the two halves of
    one buffer. -/
private theorem arrays_eq_chain (c : Dev nD) (W : (b : Ref sig .tc) → Buf (Elt F) ((c : Thread nD τ).loc b)) :
    ((dats m 0 c).arrays (fun w => W (Pipeline.arrRef spec0 w)) : sProp 𝕄)
      = iprop((((c : Thread nD τ).loc main_v0) ↦{fullShare.left} W main_v0) ∗ (((c : Thread nD τ).loc main_v0) ↦{fullShare.right} W main_v0)
          ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers held whole are the eight windows' arrays at the same contents: the bf16 copy's full share is
    the two halves its two windows hold. -/
private theorem arrBufs_arrays (c : Dev nD) (W : (b : Ref sig .tc) → Buf (Elt F) ((c : Thread nD τ).loc b)) :
    (Pipeline.arrBufs spec0 c W : sProp 𝕄) ⊣⊢ (dats m 0 c).arrays (fun w => W (Pipeline.arrRef spec0 w)) := by
  rw [arrBufs_eq, arrays_eq_chain]
  constructor
  · iintro ⟨H0, H3, H4, H5, H6, H7, H8⟩
    ihave H0 := (pointsTo_share (PosShare.mem_left_op_right fullShare)).1 $$ H0
    icases H0 with ⟨Hl, Hr⟩
    isplitl [Hl]; · iexact Hl
    isplitl [Hr]; · iexact Hr
    isplitl [H3]; · iexact H3
    isplitl [H4]; · iexact H4
    isplitl [H5]; · iexact H5
    isplitl [H6]; · iexact H6
    isplitl [H7]; · iexact H7
    iexact H8
  · iintro ⟨Hl, Hr, H3, H4, H5, H6, H7, H8⟩
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    isplitl [H6]; · iexact H6
    isplitl [H7]; · iexact H7
    iexact H8

/-- When the region is left every window's array holds what the later valuation says: an input array is never
    written, so it is as the region found it (both windows on the bf16 copy at the same contents); the two result
    arrays are the valuation's two new entries. -/
private theorem arrAt_final (c : Dev nD) (w : Fin cfg0.W) :
    (dats m 0 c).arrAt w cfg0.N = V1 m c (Proc.devRef .tc (Pipeline.arrRef spec0 w)) :=
  match w with
  | ⟨0, _⟩ => ((dats m 0 c).arrAt_in 0 rfl _).trans ((A_eq m c 0).trans (V1_of_ne m c main_v0 (by decide) (by decide)).symm)
  | ⟨1, _⟩ => ((dats m 0 c).arrAt_in 1 rfl _).trans ((A_eq m c 1).trans (V1_of_ne m c main_v0 (by decide) (by decide)).symm)
  | ⟨2, _⟩ => ((dats m 0 c).arrAt_in 2 rfl _).trans ((A_eq m c 2).trans (V1_of_ne m c main_v3 (by decide) (by decide)).symm)
  | ⟨3, _⟩ => ((dats m 0 c).arrAt_in 3 rfl _).trans ((A_eq m c 3).trans (V1_of_ne m c main_v4 (by decide) (by decide)).symm)
  | ⟨4, _⟩ => ((dats m 0 c).arrAt_in 4 rfl _).trans ((A_eq m c 4).trans (V1_of_ne m c main_v5 (by decide) (by decide)).symm)
  | ⟨5, _⟩ => ((dats m 0 c).arrAt_in 5 rfl _).trans ((A_eq m c 5).trans (V1_of_ne m c main_v6 (by decide) (by decide)).symm)
  | ⟨6, _⟩ => (V1_v7_0 m c).symm
  | ⟨7, _⟩ => (V1_v7_1 m c).symm

/-- The buffers that are no window's array are not touched by the region. -/
private theorem rest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  have hn : ∀ w : Fin 8, b ≠ Pipeline.arrRef spec0 w := fun w e =>
    (Finset.mem_sdiff.mp hb).2 (e ▸ Finset.mem_image_of_mem _ (Finset.mem_univ w))
  exact congrArg (fun f => (((c : Thread nD τ).loc b) ↦{fullShare} f : sProp 𝕄)) (V1_of_ne m c b (hn 6) (hn 7))

/-- The exit direction at any contents that agree with a valuation window by window. -/
private theorem arrays_to_arrBufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄) ⊢ Pipeline.arrBufs spec0 c W := by
  rw [show G = fun w => W (Pipeline.arrRef spec0 w) from funext hG]
  exact (arrBufs_arrays m c W).2

/-! ## @main as three segments -/

/-- The eight operations before the region, run over the unscoped buffers from the launch contents. -/
private def seg0 : Pipeline.HostSeg (Name := ℕ) (U := UR sig nD τ) (pcfgs (F := F)) defs₀ Variants.none L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- The thirteen operations after the region, run from the arrays as the region left them. -/
private def seg1 : Pipeline.HostSeg (Name := ℕ) (U := UR sig nD τ) (pcfgs (F := F)) defs₀ Variants.none L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The kernel region. It is entered from the unscoped buffers as the first stretch left them: the seven buffers behind the
    windows go to the pipeline (the bf16 copy halved between its two windows), the other eighteen bypass it; the
    invariant starts as the two scratch columns at anything and ends as the two columns at the last running values,
    whose contents are then forgotten. It is left with the seven buffers at their final contents rejoined with the eighteen. -/
private def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (VE m c) ∗ R c)
  post c := iprop(StableHlo.held (c : Thread nD τ) uc (V1 m c) ∗ R c)
  X c := iprop(emp)
  Y c := iprop(emp)
  Z c := Pipeline.unscopedRest spec0 c (V m c)
  hentry c := by
    rw [show StableHlo.held (c : Thread nD τ) uc (VE m c) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Ha := (arrBufs_arrays m c (V m c)).1 $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N)
        = iprop(owns (c : Thread nD τ) scM0 fullShare ((scr m c 7 (by decide)).1) ∗ owns (c : Thread nD τ) scM1 fullShare ((scr m c 7 (by decide)).2)) from rfl,
      Phi0_eq]
    iintro ⟨H0, H1⟩
    isplitr; · iempintro
    isplitr; · iempintro
    isplitl [H0]; · iexists _; iexact H0
    iexists _; iexact H1
  hexit c := by
    rw [show StableHlo.held (c : Thread nD τ) uc (V1 m c) = unscopedBufs c (fun b => V1 m c (Proc.devRef .tc b)) from (Pipeline.unscopedBufs_held c _).symm,
      Pipeline.unscopedBufs_split₀ cfgs 0 winFacts₀0.arr_unscoped c (fun b => V1 m c (Proc.devRef .tc b)), rest_V1]
    iintro ⟨Ha, HO, -, HZ⟩
    have hjoin := arrays_to_arrBufs m c (fun b => V1 m c (Proc.devRef .tc b)) _ (arrAt_final m c)
    ihave Ha := hjoin $$ Ha
    imodintro
    isplitr [HO]
    · isplitl [Ha]; · iexact Ha
      iexact HZ
    · unfold Pipeline.Dat.owesAt Pipeline.owesWithin
      icases HO with ⟨%W, -, HO⟩; iexists W; iexact HO

/-- The program is these three, in order. -/
private abbrev segs : List (Pipeline.Seg (pcfgs (F := F)) adm (dats m) () defs₀ Variants.none L lv) :=
  [.host (seg0 m), .region (reg0 m), .host (seg1 m)]

/-! ## What the last valuation holds at the result and at the two arguments -/

/-- An argument is the result of no operation before the region, -/
private theorem arg_not_written0 (b : Ref sig .tc) (hb : b = main_arg0 ∨ b = main_arg1) :
    ∀ op ∈ (hostOps0 (F := F)), Proc.devRef .tc b ∉ op.writes := by
  intro op hop hw
  simp only [List.mem_cons, List.mem_nil_iff, or_false] at hop
  rcases hop with rfl | rfl | rfl | rfl | rfl | rfl | rfl | rfl <;>
    simp only [StableHlo.unary_writes, StableHlo.binary_writes, StableHlo.nullary_writes, StableHlo.reshape_writes, Finset.mem_singleton] at hw <;>
    (rcases hb with rfl | rfl <;> exact absurd (Proc.devRef_injective _ hw) (by decide))

/-- nor of one after it. -/
private theorem arg_not_written1 (b : Ref sig .tc) (hb : b = main_arg0 ∨ b = main_arg1) :
    ∀ op ∈ (hostOps1 (F := F)), Proc.devRef .tc b ∉ op.writes := by
  intro op hop hw
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] at hw <;>
    (rcases hb with rfl | rfl <;> exact absurd (Proc.devRef_injective _ hw) (by decide))

/-- So each argument ends as launched: unwritten by the last stretch, no window's result array, unwritten by the
    first stretch. -/
private theorem end_arg (c : Dev nD) (b : Ref sig .tc) (hb : b = main_arg0 ∨ b = main_arg1) :
    StableHlo.after hostOps1 (V1 m c) (Proc.devRef .tc b) = m ((c : Thread nD τ).loc b) := by
  rw [StableHlo.after_of_forall_not_mem hostOps1 _ (arg_not_written1 b hb),
    V1_of_ne m c b (by rcases hb with rfl | rfl <;> decide) (by rcases hb with rfl | rfl <;> decide)]
  exact StableHlo.after_of_forall_not_mem hostOps0 (V₀ m c) (arg_not_written0 b hb)

/-- The result buffer ends at the loss of the two columns the region left: the thirteen operations, read one by one,
    are the loss's own term. -/
private theorem end_v16 (c : Dev nD) :
    StableHlo.after hostOps1 (V1 m c) (Proc.devRef .tc main_v16)
      = tailVal ((dats m 0 c).arrAt 6 cfg0.N) ((dats m 0 c).arrAt 7 cfg0.N) := by
  after_results
  rw [V1_v7_0, V1_v7_1]
  rfl

/-- A TensorCore reference that is not scoped is one of the buffers the host operations run within. -/
private theorem mem_uc (b : Ref sig .tc) (h : b.isScoped = false) : (Proc.devRef .tc b : DevRef τ sig) ∈ uc :=
  Finset.mem_filter.mpr ⟨StableHlo.devRef_mem_tcRefs b, fun h' => Bool.false_ne_true (h.symm.trans h')⟩

set_option backward.isDefEq.respectTransparency.types false in
theorem run_main : θ_run defs (onTc (τ := τ) (main (F := F))) ⟨m, fun _ => 0, ρ⟩ (fun r => ∀ c : Dev nD,
      r.2.mem ((c.tc : Thread nD τ).loc main_v16) = tailVal ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c))
    (Tₙ := fun c => StableHlo.held (c : Thread nD τ) uc (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v16) = tailVal ((dats m 0 c).arrAt 6 cfg0.N) ((dats m 0 c).arrAt 7 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all uc (fun b => ((c : Thread nD τ).1, b)) (StableHlo.after hostOps1 (V1 m c)) s') $$ [Hh HSI]
      · isplitl [Hh]; · iexact Hh
        iexact HSI
      icases Hr with ⟨%hr, HSI⟩
      imodintro
      isplitr
      · ipureintro
        exact ⟨(hr _ (mem_uc main_v16 rfl)).trans (end_v16 m c), (hr _ (mem_uc main_arg0 rfl)).trans (end_arg m c main_arg0 (.inl rfl)),
          (hr _ (mem_uc main_arg1 rfl)).trans (end_arg m c main_arg1 (.inr rfl))⟩
      iexact HSI)
    (hQ := fun _ h => h)

end Cert.Kernel.Hand

end
-- ==== Proof.IdealData.lean ====
/-
  The pairwise-distance mining kernel as a pipeline of 2 x 4 grid points: the data its correctness argument is
  stated over.

  The program first squares and row-sums X on the host (the squared norms, as a column and as a row) and casts X to
  bf16; the kernel region then visits the points (i, j), i < 2 a block of 2048 anchor rows, j < 4 a block of 1024
  candidate columns. At each point it forms the block of distances between the rows of block i and the rows of
  block j, masks it by label equality, takes the masked row maximum (hardest positive) and the masked row minimum
  (hardest negative) of the block, and folds both into two scratch columns of 2048 rows: the columns are reset to
  -inf / +inf when j = 0 and, when j = 3, copied into the two output blocks of row block i. So after point
  t = 4 i + j the scratch columns hold the running maximum / minimum over the column blocks 0..j of row block i.

  This module names those running columns (`scr`), the input blocks each point reads (`iblk`), what the two
  output windows are left holding, the invariant between points (the two scratch columns at the running values),
  and the shares: the bf16 copy of X is read through TWO windows (row blocks and column blocks of one array), each
  holding half of the array's share.
-/
import proofs.«100962_j67207648247978_1_alg».proof.Proof.Gen.KernelIdeal.Skeleton
import proofs.«100962_j67207648247978_1_alg».proof.Proof.Gen.KernelIdeal.Launch
import proofs.«100962_j67207648247978_1_alg».proof.Proof.Gen.KernelIdeal.Points
import Idealize.ShloMosaic.Lib.Pipeline.FrameBody
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m (c, b)
/-- The same after the eight host operations before the region (cast, squares, row sums, reshapes). -/
abbrev VE (c : Dev nD) : Valuation τ sig (Elt F) := StableHlo.after hostOps0 (V₀ m c)
/-- Read at a TensorCore reference. -/
abbrev V (c : Dev nD) (b : Ref sig .tc) : Buf (Elt F) ((c : Thread nD τ).loc b) := VE m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running maximum and minimum columns -/

/-- The masked row maximum of the distance block at point `t`, folded into a column `prev`. -/
def posStep (c : Dev nD) (t : Fin cfg0.N) (prev : Vec F S2048x1 .f32) : Vec F S2048x1 .f32 :=
  k0_pay2 (k0_pay6 (iblk m c 0 t) (iblk m c 1 t) (iblk m c 2 t) (iblk m c 3 t)) (k0_pay7 (F := F) (iblk m c 4 t)) (k0_pay8 (F := F) (iblk m c 5 t)) prev
/-- The masked row minimum of the distance block at point `t`, folded into a column `prev`. -/
def negStep (c : Dev nD) (t : Fin cfg0.N) (prev : Vec F S2048x1 .f32) : Vec F S2048x1 .f32 :=
  k0_pay3 (k0_pay6 (iblk m c 0 t) (iblk m c 1 t) (iblk m c 2 t) (iblk m c 3 t)) (k0_pay7 (F := F) (iblk m c 4 t)) (k0_pay8 (F := F) (iblk m c 5 t)) prev

/-- What the two scratch columns hold after the body at position `n`: at a first column block (n ≡ 0 mod 4) the
    block's row maximum / minimum folded into the all -inf / all +inf column, else folded into what the point
    before left. -/
def scr (c : Dev nD) : (n : ℕ) → n < cfg0.N → Vec F S2048x1 .f32 × Vec F S2048x1 .f32
  | 0, hn => (posStep m c ⟨0, hn⟩ (k0_pay4 (F := F)), negStep m c ⟨0, hn⟩ (k0_pay5 (F := F)))
  | n + 1, hn =>
    if (n + 1) % 4 = 0 then (posStep m c ⟨n + 1, hn⟩ (k0_pay4 (F := F)), negStep m c ⟨n + 1, hn⟩ (k0_pay5 (F := F)))
    else (posStep m c ⟨n + 1, hn⟩ (scr c n (Nat.lt_of_succ_lt hn)).1, negStep m c ⟨n + 1, hn⟩ (scr c n (Nat.lt_of_succ_lt hn)).2)

/-- At a first column block the columns restart. -/
theorem scr_reset (c : Dev nD) (t : Fin cfg0.N) (h : t.val % 4 = 0) :
    scr m c t.val t.isLt = (posStep m c t (k0_pay4 (F := F)), negStep m c t (k0_pay5 (F := F))) := by
  obtain ⟨n, hn⟩ := t
  cases n with
  | zero => rfl
  | succ n => exact (if_pos h).trans rfl

/-- At a later column block they fold the block into what the point before left. -/
theorem scr_step (c : Dev nD) (t : Fin cfg0.N) (h : ¬ t.val % 4 = 0) :
    scr m c t.val t.isLt = (posStep m c t (scr m c (t.val - 1) (Nat.lt_of_le_of_lt (Nat.sub_le _ _) t.isLt)).1,
      negStep m c t (scr m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The memrefs the body is called with -/

abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1 .f32 := win0_7.stage (cfg0.slots t 7)
abbrev hs0_7 (t : Fin cfg0.N) : (ms0_7 t).IsWhole := hstage0_7 ((cfg0.slots t 7).cast nbuf0_7)
/-- The two scratch columns: whole scoped buffers of the kernel's own. -/
abbrev scM0 : Memref sig .tc .vmem S2048x1 .f32 := Memref.whole cc0_scratch0
abbrev scM1 : Memref sig .tc .vmem S2048x1 .f32 := Memref.whole cc0_scratch1

/-! ## The body's two conditions, decided over the grid -/

/-- `j = 0`: the columns are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)
/-- `j = 3`: the columns are copied out. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The inputs are never idle; the two outputs are idle, and not written back, exactly where `j ≠ 3`. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem idleAt_6 : ∀ t : Fin cfg0.N, ¬ condLast (grid0.coords t) → cfg0.idle 6 (grid0.coords t) = true := by decide +kernel
theorem idleAt_7 : ∀ t : Fin cfg0.N, ¬ condLast (grid0.coords t) → cfg0.idle 7 (grid0.coords t) = true := by decide +kernel
theorem liveAt_6 : ∀ t : Fin cfg0.N, condLast (grid0.coords t) → cfg0.idle 6 (grid0.coords t) = false := by decide +kernel
theorem liveAt_7 : ∀ t : Fin cfg0.N, condLast (grid0.coords t) → cfg0.idle 7 (grid0.coords t) = false := by decide +kernel
theorem noFlush_6 : ∀ t : Fin cfg0.N, ¬ condLast (grid0.coords t) → (cfg0.win 6).flush t = false := by decide +kernel
theorem noFlush_7 : ∀ t : Fin cfg0.N, ¬ condLast (grid0.coords t) → (cfg0.win 7).flush t = false := by decide +kernel

/-! ## The invariant between points and the proof data -/

/-- Before the first point the two scratch columns hold anything; before any later point, what the point before
    left in them. -/
def Phi (c : Dev nD) : (n : ℕ) → n ≤ cfg0.N → sProp 𝕄
  | 0, _ => Pipeline.scopedRest spec0 c
  | n + 1, hn => iprop(owns (c : Thread nD τ) scM0 fullShare ((scr m c n hn).1) ∗ owns (c : Thread nD τ) scM1 fullShare ((scr m c n hn).2))

theorem Phi_zero (c : Dev nD) (n : ℕ) (h : n ≤ cfg0.N) (hz : n = 0) : Phi m c n h = Pipeline.scopedRest spec0 c := by
  subst hz; rfl
theorem Phi_succ (c : Dev nD) (n : ℕ) (hn : n < cfg0.N) :
    Phi m c (n + 1) hn = iprop(owns (c : Thread nD τ) scM0 fullShare ((scr m c n hn).1) ∗ owns (c : Thread nD τ) scM1 fullShare ((scr m c n hn).2)) := rfl
theorem Phi_pos (c : Dev nD) (n : ℕ) (h : n ≤ cfg0.N) (hz : n ≠ 0) :
    Phi m c n h = iprop(owns (c : Thread nD τ) scM0 fullShare ((scr m c (n - 1) (by omega)).1) ∗ owns (c : Thread nD τ) scM1 fullShare ((scr m c (n - 1) (by omega)).2)) := by
  cases n with
  | zero => exact absurd rfl hz
  | succ n => rfl

/-- The two scratch columns at anything, one by one. -/
theorem Phi0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The proof data on core `c`: the arrays as the region finds them; each input's buffer left at its block, the
    two outputs' at the running columns (consulted only where j = 3, when the body has just copied them out); the
    invariant above; nothing owed; the bf16 array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (scr m c t.val t.isLt).1
    | ⟨7, _⟩ => (scr m c t.val t.isLt).2
  Φ t := Phi m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (scr m c t.val t.isLt).1 := by dsimp only [dats]
theorem after_7 (c : Dev nD) (t : Fin cfg0.N) : (dats m 0 c).after 7 t = (scr m c t.val t.isLt).2 := by dsimp only [dats]

/-- Each input's current staging buffer holds its block at every point, fetched there or not: an input not fetched
    at a point has the block index of the point before. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The host operations after the region, as one function of the two result columns -/

/-- The loss from the two columns: flatten both, subtract, add the margin, clamp at zero, sum, divide by the number of rows. -/
def tailVal (ap an : Vec F S4096x1 .f32) : Vec F S_ .f32 :=
  Host.divf
    (Host.reduceAdd
      (maximumf
        (addf (subf (shapeCast S4096 ap shapeCasts_S4096x1_S4096) (shapeCast S4096 an shapeCasts_S4096x1_S4096))
          (broadcastInDim S4096 ![] bcast_S_S4096 (constant S_ .f32 0x3E99999A#32)))
        (broadcastInDim S4096 ![] bcast_S_S4096 (constant S_ .f32 0x00000000#32)))
      (constant S_ .f32 0x00000000#32) reducesTo_S4096_S_d0 h_S_)
    (constant S_ .f32 0x45800000#32)

end Cert.KernelIdeal.Hand

end
-- ==== Proof.IdealBody.lean ====
/-
  The kernel body at every grid point meets the proof data: from the six input blocks, the two scratch columns at
  the running values (at anything when j = 0, where the body resets them) and the two output buffers at anything,
  it leaves the scratch columns at the next running values, and, when j = 3, the output buffers at those values.
-/
import proofs.«100962_j67207648247978_1_alg».proof.Proof.IdealData
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Both literal offsets are zero. -/
private theorem hz : (![0, 0] : Fin 2 → Nat) = fun _ => 0 := funext fun a => by fin_cases a <;> rfl

/-- A column stored whole, last, reads back as the stored column, whatever was stored before. -/
private theorem read_writes_col {κ : Kind} {sp : Space} (v : View sig κ sp S2048x1 .f32) (f : v.ty.Contents (Elt F))
    (w : S2048x1.Idx → Elt F .f32) (L : List (View.Piece (Elt F) S2048x1 .f32)) :
    v.read (Elt F) (v.writes (Elt F) f ((⟨Rect.unit (s := S2048x1) ![0, 0] S2048x1.size inb_S2048x1_S2048x1_0_0, w⟩ : View.Piece (Elt F) S2048x1 .f32) :: L)) = w := by
  rw [View.read_writes_eq_canon _ _ _ (fun y => ⟨_, List.mem_cons_self, View.mem_set_unit_zero hz inb_S2048x1_S2048x1_0_0 y⟩),
    View.canon_cons_unit_zero hz]

/-- A point with 0 < j < 3: the block's masked row maximum / minimum is folded into the two columns; the output
    buffers are not touched. -/
private theorem run_mid (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : ¬ condFirst i) (hc1 : ¬ condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (y6 y7 p0 p1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ owns (c : Thread nD τ) arg10 fullShare p0 ∗ owns (c : Thread nD τ) arg11 fullShare p1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (k0_pay2 (k0_pay6 x0 x1 x2 x3) (k0_pay7 (F := F) x4) (k0_pay8 (F := F) x5) p0)
            ∗ owns (c : Thread nD τ) arg11 fullShare (k0_pay3 (k0_pay6 x0 x1 x2 x3) (k0_pay7 (F := F) x4) (k0_pay8 (F := F) x5) p1)) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-- A point with j = 0: the two columns are first reset to the all -inf / all +inf columns, whatever they held,
    then the block is folded in; the output buffers are not touched. -/
private theorem run_first (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : condFirst i) (hc1 : ¬ condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (y6 y7 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (k0_pay2 (k0_pay6 x0 x1 x2 x3) (k0_pay7 (F := F) x4) (k0_pay8 (F := F) x5) (k0_pay4 (F := F)))
            ∗ owns (c : Thread nD τ) arg11 fullShare (k0_pay3 (k0_pay6 x0 x1 x2 x3) (k0_pay7 (F := F) x4) (k0_pay8 (F := F) x5) (k0_pay5 (F := F)))) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-- A point with j = 3: the block is folded into the two columns, and the new columns are copied into the two
    output buffers, whatever those held. -/
private theorem run_last (c : Dev nD) (i : grid0.Coords) (arg2 : Memref sig .tc .vmem S2048x2048 .bf16) (harg2 : arg2.IsWhole) (arg3 : Memref sig .tc .vmem S1024x2048 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .i32) (harg6 : arg6.IsWhole) (arg7 : Memref sig .tc .vmem S1x1024 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole)
    (hc0 : ¬ condFirst i) (hc1 : condLast i) (x0 : Vec F S2048x2048 .bf16) (x1 : Vec F S1024x2048 .bf16) (x2 : Vec F S2048x1 .f32) (x3 : Vec F S1x1024 .f32) (x4 : Vec F S2048x1 .i32) (x5 : Vec F S1x1024 .i32)
    (p0 p1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare p0 ∗ owns (c : Thread nD τ) arg11 fullShare p1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 (k0_pay6 x0 x1 x2 x3) (k0_pay7 (F := F) x4) (k0_pay8 (F := F) x5) p0) ∗ owns (c : Thread nD τ) arg9 fullShare (k0_pay3 (k0_pay6 x0 x1 x2 x3) (k0_pay7 (F := F) x4) (k0_pay8 (F := F) x5) p1)
            ∗ owns (c : Thread nD τ) arg10 fullShare (k0_pay2 (k0_pay6 x0 x1 x2 x3) (k0_pay7 (F := F) x4) (k0_pay8 (F := F) x5) p0)
            ∗ owns (c : Thread nD τ) arg11 fullShare (k0_pay3 (k0_pay6 x0 x1 x2 x3) (k0_pay7 (F := F) x4) (k0_pay8 (F := F) x5) p1)) -∗ K ⟨⟩))
      ⊢ wp frame (wpE (defs₀ (F := F)) Variants.none c none) E (cc0__mining_kernel i arg2 harg2 arg3 harg3 arg4 harg4 arg5 harg5 arg6 harg6 arg7 harg7 arg8 harg8 arg9 harg9 arg10 harg10 arg11 harg11) K := by
  simp only [cc0__mining_kernel_eq_skeleton]; unfold cc0__mining_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  isplitl [H9]
  · iexists _; isplitr; swap; · iexact H9
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  isplitl [H10]
  · iexists _; isplitr; swap; · iexact H10
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]
  · iexists _; isplitr; swap; · iexact H11
    ipureintro
    sl_unfold_words
    refine (read_writes_col _ _ _ _).trans ?_
    simp only [View.readAt_eq_ld, harg2.read_unread, harg3.read_unread, harg4.read_unread, harg5.read_unread, harg6.read_unread, harg7.read_unread, harg10.read_unread, harg11.read_unread, View.ld_unit_zero (S := S2048x2048) hz, View.ld_unit_zero (S := S1024x2048) hz, View.ld_unit_zero (S := S2048x1) hz, View.ld_unit_zero (S := S1x1024) hz, View.readCov_unit_zero (S := S2048x1) _ hz]

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- Before any point the two scratch columns are owned at some contents: before the first point of all by the
    region's entry, later at the running values, which a point with j = 0 does not read. -/
private theorem Phi_any (c : Dev nD) (t : Fin cfg0.N) :
    (dats m 0 c).Φ t.castSucc
      ⊢ iprop((∃ d, owns (c : Thread nD τ) scM0 fullShare d) ∗ (∃ d, owns (c : Thread nD τ) scM1 fullShare d)) := by
  rw [Phi_castSucc m c t]
  by_cases hz : t.val = 0
  · rw [Phi_zero m c _ _ hz, Phi0_eq]
  · rw [Phi_pos m c _ _ hz]
    iintro ⟨HS0, HS1⟩
    isplitl [HS0]
    · iexists _; iexact HS0
    iexists _; iexact HS1

set_option maxHeartbeats 4800000 in
/-- The body at any point. The six input buffers hold their blocks; the point's position in its row of column
    blocks (j = 0, 0 < j < 3, j = 3; the grid has no point with j = 0 and j = 3 at once) selects the case; the
    invariant hands over the two scratch columns (at anything where j = 0, else at the running values of the
    point before) and takes them back at this point's running values; where j ≠ 3 the two output buffers are
    idle and come back as found, where j = 3 they come back at the running values. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt_0 t], after_0]
  rw [show (dats m 0 c).leavesExact 1 t = owns (c : Thread nD τ) (ms0_1 t) fullShare ((dats m 0 c).after 1 t) from by
    unfold Dat.leavesExact; rw [liveAt_1 t], after_1]
  rw [show (dats m 0 c).leavesExact 2 t = owns (c : Thread nD τ) (ms0_2 t) fullShare ((dats m 0 c).after 2 t) from by
    unfold Dat.leavesExact; rw [liveAt_2 t], after_2]
  rw [show (dats m 0 c).leavesExact 3 t = owns (c : Thread nD τ) (ms0_3 t) fullShare ((dats m 0 c).after 3 t) from by
    unfold Dat.leavesExact; rw [liveAt_3 t], after_3]
  rw [show (dats m 0 c).leavesExact 4 t = owns (c : Thread nD τ) (ms0_4 t) fullShare ((dats m 0 c).after 4 t) from by
    unfold Dat.leavesExact; rw [liveAt_4 t], after_4]
  rw [show (dats m 0 c).leavesExact 5 t = owns (c : Thread nD τ) (ms0_5 t) fullShare ((dats m 0 c).after 5 t) from by
    unfold Dat.leavesExact; rw [liveAt_5 t], after_5]
  by_cases h0 : t.val % 4 = 0
  · -- j = 0
    have hc0 : condFirst (grid0.coords t) := (hcondFirst t).mpr h0
    have hc1 : ¬ condLast (grid0.coords t) := fun h => by have := (hcondLast t).mp h; omega
    rw [Dat.leavesExact_idle (dats m 0 c) 6 t (idleAt_6 t hc1) (noFlush_6 t hc1)]
    rw [Dat.leavesExact_idle (dats m 0 c) 7 t (idleAt_7 t hc1) (noFlush_7 t hc1)]
    rw [scr_reset m c t h0]; dsimp only
    unfold posStep negStep
    refine (sep_mono (Phi_any m c t) .rfl).trans ?_
    iintro ⟨⟨⟨%e0, HS0⟩, ⟨%e1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) ((dats m 0 c).before 6 t d6) ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hz : t.val ≠ 0 := fun h => h0 (by rw [h])
    have hc0 : ¬ condFirst (grid0.coords t) := fun h => h0 ((hcondFirst t).mp h)
    rw [Phi_castSucc m c t, Phi_pos m c _ _ hz]
    rw [scr_step m c t h0]; dsimp only
    by_cases h1 : t.val % 4 = 3
    · -- j = 3
      have hc1 : condLast (grid0.coords t) := (hcondLast t).mpr h1
      rw [show (dats m 0 c).leavesExact 6 t = owns (c : Thread nD τ) (ms0_6 t) fullShare ((dats m 0 c).after 6 t) from by
        unfold Dat.leavesExact; rw [liveAt_6 t hc1], after_6]
      rw [show (dats m 0 c).leavesExact 7 t = owns (c : Thread nD τ) (ms0_7 t) fullShare ((dats m 0 c).after 7 t) from by
        unfold Dat.leavesExact; rw [liveAt_7 t hc1], after_7]
      rw [scr_step m c t h0]; dsimp only
      unfold posStep negStep
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) (scr m c (t.val - 1) (Nat.lt_of_le_of_lt (Nat.sub_le _ _) t.isLt)).1 (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- 0 < j < 3
      have hc1 : ¬ condLast (grid0.coords t) := fun h => h1 ((hcondLast t).mp h)
      rw [Dat.leavesExact_idle (dats m 0 c) 6 t (idleAt_6 t hc1) (noFlush_6 t hc1)]
      rw [Dat.leavesExact_idle (dats m 0 c) 7 t (idleAt_7 t hc1) (noFlush_7 t hc1)]
      unfold posStep negStep
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk m c 0 t) (iblk m c 1 t) (iblk m c 2 t) (iblk m c 3 t) (iblk m c 4 t) (iblk m c 5 t) ((dats m 0 c).before 6 t d6) ((dats m 0 c).before 7 t d7) (scr m c (t.val - 1) (Nat.lt_of_le_of_lt (Nat.sub_le _ _) t.isLt)).1 (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The whole program's run: the eight host operations, the kernel region, the thirteen host operations after it.
  Every weakly fair execution terminates; the result buffer ends at the loss computed from the two columns the region
  leaves, and the two arguments end as launched.
-/
import proofs.«100962_j67207648247978_1_alg».proof.Proof.IdealBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Levels, tables, and what a core carries beside its buffers -/

/-- The cores owe one another nothing, so no pair of cells carries a level. -/
private abbrev L : GSem nD τ sig → Finset Unit := fun _ => ∅
private abbrev lv : GSem nD τ sig → Unit → ℕ := fun _ _ => 0
/-- The kernel prefetches no table: the admissible contents are the trivial ones. -/
private abbrev adm : (p : Fin 1) → (pcfgs (F := F) p).Adm := fun p => (cfgs p).toPCfg_adm

/-- Beside the buffers a core carries that it owes nothing. -/
private abbrev R (c : Dev nD) : sProp 𝕄 := iprop(∃ W, owes (c : Thread nD τ) (0 : CellTallies nD τ sig Unit) W)

/-- The TensorCore's unscoped buffers, as device buffers: the set every host operation runs within. -/
private abbrev uc : Finset (DevRef τ sig) := Pipeline.ucRefs τ sig

/-! ## The arrays after the region -/

/-- The arrays when the region is left: the two result arrays at what the write-backs made of them, every other
    buffer as the region found it. -/
private def V1 (c : Dev nD) : Valuation τ sig (Elt F) :=
  Function.update (Function.update (VE m c) (Proc.devRef .tc main_v7_0) ((dats m 0 c).arrAt 6 cfg0.N))
    (Proc.devRef .tc main_v7_1) ((dats m 0 c).arrAt 7 cfg0.N)

private theorem V1_v7_1 (c : Dev nD) : V1 m c (Proc.devRef .tc main_v7_1) = (dats m 0 c).arrAt 7 cfg0.N := by
  unfold V1; rw [Function.update_self]

private theorem V1_v7_0 (c : Dev nD) : V1 m c (Proc.devRef .tc main_v7_0) = (dats m 0 c).arrAt 6 cfg0.N := by
  unfold V1
  rw [Function.update_of_ne (StableHlo.devRef_ne_of_ne (by decide)), Function.update_self]

/-- Any other buffer is as the region found it. -/
private theorem V1_of_ne (c : Dev nD) (b : Ref sig .tc) (h0 : b ≠ main_v7_0) (h1 : b ≠ main_v7_1) :
    V1 m c (Proc.devRef .tc b) = VE m c (Proc.devRef .tc b) := by
  unfold V1
  rw [Function.update_of_ne (StableHlo.devRef_ne_of_ne h1), Function.update_of_ne (StableHlo.devRef_ne_of_ne h0)]

/-! ## The windows' arrays: seven buffers behind eight windows

Windows 0 and 1 both read the bf16 copy of X, each at half of its share; the other six windows each hold their own
array whole. -/

/-- The distinct buffers behind the windows' arrays, one by one. -/
private theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v0, main_v3, main_v4, main_v5, main_v6, main_v7_0, main_v7_1] (by decide) (by decide) _

/-- The eight windows' arrays at contents read off one valuation, one by one: the first two are the two halves of
    one buffer. -/
private theorem arrays_eq_chain (c : Dev nD) (W : (b : Ref sig .tc) → Buf (Elt F) ((c : Thread nD τ).loc b)) :
    ((dats m 0 c).arrays (fun w => W (Pipeline.arrRef spec0 w)) : sProp 𝕄)
      = iprop((((c : Thread nD τ).loc main_v0) ↦{fullShare.left} W main_v0) ∗ (((c : Thread nD τ).loc main_v0) ↦{fullShare.right} W main_v0)
          ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7_0) ↦{fullShare} W main_v7_0)
          ∗ (((c : Thread nD τ).loc main_v7_1) ↦{fullShare} W main_v7_1)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers held whole are the eight windows' arrays at the same contents: the bf16 copy's full share is
    the two halves its two windows hold. -/
private theorem arrBufs_arrays (c : Dev nD) (W : (b : Ref sig .tc) → Buf (Elt F) ((c : Thread nD τ).loc b)) :
    (Pipeline.arrBufs spec0 c W : sProp 𝕄) ⊣⊢ (dats m 0 c).arrays (fun w => W (Pipeline.arrRef spec0 w)) := by
  rw [arrBufs_eq, arrays_eq_chain]
  constructor
  · iintro ⟨H0, H3, H4, H5, H6, H7, H8⟩
    ihave H0 := (pointsTo_share (PosShare.mem_left_op_right fullShare)).1 $$ H0
    icases H0 with ⟨Hl, Hr⟩
    isplitl [Hl]; · iexact Hl
    isplitl [Hr]; · iexact Hr
    isplitl [H3]; · iexact H3
    isplitl [H4]; · iexact H4
    isplitl [H5]; · iexact H5
    isplitl [H6]; · iexact H6
    isplitl [H7]; · iexact H7
    iexact H8
  · iintro ⟨Hl, Hr, H3, H4, H5, H6, H7, H8⟩
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    isplitl [H6]; · iexact H6
    isplitl [H7]; · iexact H7
    iexact H8

/-- When the region is left every window's array holds what the later valuation says: an input array is never
    written, so it is as the region found it (both windows on the bf16 copy at the same contents); the two result
    arrays are the valuation's two new entries. -/
private theorem arrAt_final (c : Dev nD) (w : Fin cfg0.W) :
    (dats m 0 c).arrAt w cfg0.N = V1 m c (Proc.devRef .tc (Pipeline.arrRef spec0 w)) :=
  match w with
  | ⟨0, _⟩ => ((dats m 0 c).arrAt_in 0 rfl _).trans ((A_eq m c 0).trans (V1_of_ne m c main_v0 (by decide) (by decide)).symm)
  | ⟨1, _⟩ => ((dats m 0 c).arrAt_in 1 rfl _).trans ((A_eq m c 1).trans (V1_of_ne m c main_v0 (by decide) (by decide)).symm)
  | ⟨2, _⟩ => ((dats m 0 c).arrAt_in 2 rfl _).trans ((A_eq m c 2).trans (V1_of_ne m c main_v3 (by decide) (by decide)).symm)
  | ⟨3, _⟩ => ((dats m 0 c).arrAt_in 3 rfl _).trans ((A_eq m c 3).trans (V1_of_ne m c main_v4 (by decide) (by decide)).symm)
  | ⟨4, _⟩ => ((dats m 0 c).arrAt_in 4 rfl _).trans ((A_eq m c 4).trans (V1_of_ne m c main_v5 (by decide) (by decide)).symm)
  | ⟨5, _⟩ => ((dats m 0 c).arrAt_in 5 rfl _).trans ((A_eq m c 5).trans (V1_of_ne m c main_v6 (by decide) (by decide)).symm)
  | ⟨6, _⟩ => (V1_v7_0 m c).symm
  | ⟨7, _⟩ => (V1_v7_1 m c).symm

/-- The buffers that are no window's array are not touched by the region. -/
private theorem rest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  have hn : ∀ w : Fin 8, b ≠ Pipeline.arrRef spec0 w := fun w e =>
    (Finset.mem_sdiff.mp hb).2 (e ▸ Finset.mem_image_of_mem _ (Finset.mem_univ w))
  exact congrArg (fun f => (((c : Thread nD τ).loc b) ↦{fullShare} f : sProp 𝕄)) (V1_of_ne m c b (hn 6) (hn 7))

/-- The exit direction at any contents that agree with a valuation window by window. -/
private theorem arrays_to_arrBufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄) ⊢ Pipeline.arrBufs spec0 c W := by
  rw [show G = fun w => W (Pipeline.arrRef spec0 w) from funext hG]
  exact (arrBufs_arrays m c W).2

/-! ## @main as three segments -/

/-- The eight operations before the region, run over the unscoped buffers from the launch contents. -/
private def seg0 : Pipeline.HostSeg (Name := ℕ) (U := UR sig nD τ) (pcfgs (F := F)) defs₀ Variants.none L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- The thirteen operations after the region, run from the arrays as the region left them. -/
private def seg1 : Pipeline.HostSeg (Name := ℕ) (U := UR sig nD τ) (pcfgs (F := F)) defs₀ Variants.none L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The kernel region. It is entered from the unscoped buffers as the first stretch left them: the seven buffers behind the
    windows go to the pipeline (the bf16 copy halved between its two windows), the other eighteen bypass it; the
    invariant starts as the two scratch columns at anything and ends as the two columns at the last running values,
    whose contents are then forgotten. It is left with the seven buffers at their final contents rejoined with the eighteen. -/
private def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (VE m c) ∗ R c)
  post c := iprop(StableHlo.held (c : Thread nD τ) uc (V1 m c) ∗ R c)
  X c := iprop(emp)
  Y c := iprop(emp)
  Z c := Pipeline.unscopedRest spec0 c (V m c)
  hentry c := by
    rw [show StableHlo.held (c : Thread nD τ) uc (VE m c) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Ha := (arrBufs_arrays m c (V m c)).1 $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N)
        = iprop(owns (c : Thread nD τ) scM0 fullShare ((scr m c 7 (by decide)).1) ∗ owns (c : Thread nD τ) scM1 fullShare ((scr m c 7 (by decide)).2)) from rfl,
      Phi0_eq]
    iintro ⟨H0, H1⟩
    isplitr; · iempintro
    isplitr; · iempintro
    isplitl [H0]; · iexists _; iexact H0
    iexists _; iexact H1
  hexit c := by
    rw [show StableHlo.held (c : Thread nD τ) uc (V1 m c) = unscopedBufs c (fun b => V1 m c (Proc.devRef .tc b)) from (Pipeline.unscopedBufs_held c _).symm,
      Pipeline.unscopedBufs_split₀ cfgs 0 winFacts₀0.arr_unscoped c (fun b => V1 m c (Proc.devRef .tc b)), rest_V1]
    iintro ⟨Ha, HO, -, HZ⟩
    have hjoin := arrays_to_arrBufs m c (fun b => V1 m c (Proc.devRef .tc b)) _ (arrAt_final m c)
    ihave Ha := hjoin $$ Ha
    imodintro
    isplitr [HO]
    · isplitl [Ha]; · iexact Ha
      iexact HZ
    · unfold Pipeline.Dat.owesAt Pipeline.owesWithin
      icases HO with ⟨%W, -, HO⟩; iexists W; iexact HO

/-- The program is these three, in order. -/
private abbrev segs : List (Pipeline.Seg (pcfgs (F := F)) adm (dats m) () defs₀ Variants.none L lv) :=
  [.host (seg0 m), .region (reg0 m), .host (seg1 m)]

/-! ## What the last valuation holds at the result and at the two arguments -/

/-- An argument is the result of no operation before the region, -/
private theorem arg_not_written0 (b : Ref sig .tc) (hb : b = main_arg0 ∨ b = main_arg1) :
    ∀ op ∈ (hostOps0 (F := F)), Proc.devRef .tc b ∉ op.writes := by
  intro op hop hw
  simp only [List.mem_cons, List.mem_nil_iff, or_false] at hop
  rcases hop with rfl | rfl | rfl | rfl | rfl | rfl | rfl | rfl <;>
    simp only [StableHlo.unary_writes, StableHlo.binary_writes, StableHlo.nullary_writes, StableHlo.reshape_writes, Finset.mem_singleton] at hw <;>
    (rcases hb with rfl | rfl <;> exact absurd (Proc.devRef_injective _ hw) (by decide))

/-- nor of one after it. -/
private theorem arg_not_written1 (b : Ref sig .tc) (hb : b = main_arg0 ∨ b = main_arg1) :
    ∀ op ∈ (hostOps1 (F := F)), Proc.devRef .tc b ∉ op.writes := by
  intro op hop hw
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] at hw <;>
    (rcases hb with rfl | rfl <;> exact absurd (Proc.devRef_injective _ hw) (by decide))

/-- So each argument ends as launched: unwritten by the last stretch, no window's result array, unwritten by the
    first stretch. -/
private theorem end_arg (c : Dev nD) (b : Ref sig .tc) (hb : b = main_arg0 ∨ b = main_arg1) :
    StableHlo.after hostOps1 (V1 m c) (Proc.devRef .tc b) = m ((c : Thread nD τ).loc b) := by
  rw [StableHlo.after_of_forall_not_mem hostOps1 _ (arg_not_written1 b hb),
    V1_of_ne m c b (by rcases hb with rfl | rfl <;> decide) (by rcases hb with rfl | rfl <;> decide)]
  exact StableHlo.after_of_forall_not_mem hostOps0 (V₀ m c) (arg_not_written0 b hb)

/-- The result buffer ends at the loss of the two columns the region left: the thirteen operations, read one by one,
    are the loss's own term. -/
private theorem end_v16 (c : Dev nD) :
    StableHlo.after hostOps1 (V1 m c) (Proc.devRef .tc main_v16)
      = tailVal ((dats m 0 c).arrAt 6 cfg0.N) ((dats m 0 c).arrAt 7 cfg0.N) := by
  after_results
  rw [V1_v7_0, V1_v7_1]
  rfl

/-- A TensorCore reference that is not scoped is one of the buffers the host operations run within. -/
private theorem mem_uc (b : Ref sig .tc) (h : b.isScoped = false) : (Proc.devRef .tc b : DevRef τ sig) ∈ uc :=
  Finset.mem_filter.mpr ⟨StableHlo.devRef_mem_tcRefs b, fun h' => Bool.false_ne_true (h.symm.trans h')⟩

set_option backward.isDefEq.respectTransparency.types false in
theorem run_main : θ_run defs (onTc (τ := τ) (main (F := F))) ⟨m, fun _ => 0, ρ⟩ (fun r => ∀ c : Dev nD,
      r.2.mem ((c.tc : Thread nD τ).loc main_v16) = tailVal ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c))
    (Tₙ := fun c => StableHlo.held (c : Thread nD τ) uc (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v16) = tailVal ((dats m 0 c).arrAt 6 cfg0.N) ((dats m 0 c).arrAt 7 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all uc (fun b => ((c : Thread nD τ).1, b)) (StableHlo.after hostOps1 (V1 m c)) s') $$ [Hh HSI]
      · isplitl [Hh]; · iexact Hh
        iexact HSI
      icases Hr with ⟨%hr, HSI⟩
      imodintro
      isplitr
      · ipureintro
        exact ⟨(hr _ (mem_uc main_v16 rfl)).trans (end_v16 m c), (hr _ (mem_uc main_arg0 rfl)).trans (end_arg m c main_arg0 (.inl rfl)),
          (hr _ (mem_uc main_arg1 rfl)).trans (end_arg m c main_arg1 (.inr rfl))⟩
      iexact HSI)
    (hQ := fun _ h => h)

end Cert.KernelIdeal.Hand

end
-- ==== Proof.IdealEntry.lean ====
/-
  What the kernel region reads, on the extended reals. The arrays it finds: the bf16 copy of X is X (a format change
  is the identity), the squared norms as a column and as a row are the rows' sums of squares, the labels as a column
  and as a row are the labels. And the blocks its windows stage at point t = 4 i + j: rows 2048 i .. 2048 i + 2047 of
  a column-shaped or matrix-shaped array, rows (columns) 1024 j .. 1024 j + 1023 of a row-shaped one or of the matrix
  read as candidates.
-/
import proofs.«100962_j67207648247978_1_alg».proof.Proof.IdealData
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The rows' squared norms, as the host computes them before the region. -/
def sqK (X : FVec Ideal S4096x2048 .f32) : FVec Ideal S4096 .f32 :=
  Host.reduceAdd (F := Ideal) (mulf X X) (constant (F := Ideal) S_ .f32 0x00000000#32) reducesTo_S4096x2048_S4096_d1 h_S_

theorem N_eq : cfg0.N = 8 := N_0
/-- Row `p` of row block `t / 4` is a row of the matrix. -/
theorem rowLt (t : Fin cfg0.N) (p : Fin 2048) : 2048 * (t.val / 4) + p.val < 4096 := by
  have := lt_of_lt_of_eq t.isLt N_eq; omega
/-- Row `q` of column block `t % 4` is a row of the matrix. -/
theorem colLt (t : Fin cfg0.N) (q : Fin 1024) : 1024 * (t.val % 4) + q.val < 4096 := by
  have := Nat.mod_lt t.val (show 0 < 4 by decide); omega

/-! ## Layout operations of a column, read at an index -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The arrays when the region is entered, as the host operations leave them -/

/-- The bf16 copy of X. -/
theorem V_v0 (c : Dev nD) :
    @Eq (S4096x2048.Idx → Ideal .bf16) (V m c main_v0)
      (truncf .bf16 (m ((c.tc : Thread nD τ).loc main_arg0) : FVec Ideal S4096x2048 .f32) bitsLt_bf16_f32) := by
  show StableHlo.after hostOps0 (V₀ m c) (Proc.devRef .tc main_v0) = _
  after_results

/-- The squared norms as a column. -/
theorem V_v3 (c : Dev nD) :
    @Eq (S4096x1.Idx → Ideal .f32) (V m c main_v3)
      (shapeCast S4096x1 (sqK (m ((c.tc : Thread nD τ).loc main_arg0))) shapeCasts_S4096_S4096x1) := by
  show StableHlo.after hostOps0 (V₀ m c) (Proc.devRef .tc main_v3) = _
  after_results
  rfl

/-- The squared norms as a row. -/
theorem V_v4 (c : Dev nD) :
    @Eq (S1x4096.Idx → Ideal .f32) (V m c main_v4)
      (shapeCast S1x4096 (sqK (m ((c.tc : Thread nD τ).loc main_arg0))) shapeCasts_S4096_S1x4096) := by
  show StableHlo.after hostOps0 (V₀ m c) (Proc.devRef .tc main_v4) = _
  after_results
  rfl

/-- The labels as a column. -/
theorem V_v5 (c : Dev nD) :
    @Eq (S4096x1.Idx → BitVec 32) (V m c main_v5)
      (shapeCast S4096x1 (m ((c.tc : Thread nD τ).loc main_arg1) : S4096.Idx → BitVec 32) shapeCasts_S4096_S4096x1) := by
  show StableHlo.after hostOps0 (V₀ m c) (Proc.devRef .tc main_v5) = _
  after_results
  rfl

/-- The labels as a row. -/
theorem V_v6 (c : Dev nD) :
    @Eq (S1x4096.Idx → BitVec 32) (V m c main_v6)
      (shapeCast S1x4096 (m ((c.tc : Thread nD τ).loc main_arg1) : S4096.Idx → BitVec 32) shapeCasts_S4096_S1x4096) := by
  show StableHlo.after hostOps0 (V₀ m c) (Proc.devRef .tc main_v6) = _
  after_results
  rfl

/-- The windows' block indices at point `t = 4 i + j`: row-block windows sit at block `i = t / 4`, column-block
    windows at block `j = t % 4`, and the other axis is not cut. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4 :=
  (by decide +kernel : ∀ t : Fin grid0.N, _)

/-! ## The arrays when the region is entered, read at an index -/

theorem Vv0_apply (c : Dev nD) (a : Fin 4096) (k : Fin 2048) :
    V m c main_v0 (ix2 a k) = m ((c.tc : Thread nD τ).loc main_arg0) (ix2 a k) := by
  exact congrFun (V_v0 m c) (ix2 a k)
theorem Vv3_apply (c : Dev nD) (a : Fin 4096) :
    V m c main_v3 (ix2 a (0 : Fin 1)) = sqK (m ((c.tc : Thread nD τ).loc main_arg0)) (ix1 a) := by
  exact (congrFun (V_v3 m c) (ix2 a (0 : Fin 1))).trans (shapeCast_a_a1_apply _ _ a 0)
theorem Vv4_apply (c : Dev nD) (a : Fin 4096) :
    V m c main_v4 (ix2 (0 : Fin 1) a) = sqK (m ((c.tc : Thread nD τ).loc main_arg0)) (ix1 a) := by
  exact (congrFun (V_v4 m c) (ix2 (0 : Fin 1) a)).trans (shapeCast_a_1a_apply _ _ 0 a)
theorem Vv5_apply (c : Dev nD) (a : Fin 4096) :
    V m c main_v5 (ix2 a (0 : Fin 1)) = m ((c.tc : Thread nD τ).loc main_arg1) (ix1 a) := by
  exact (congrFun (V_v5 m c) (ix2 a (0 : Fin 1))).trans (shapeCast_a_a1_apply _ _ a 0)
theorem Vv6_apply (c : Dev nD) (a : Fin 4096) :
    V m c main_v6 (ix2 (0 : Fin 1) a) = m ((c.tc : Thread nD τ).loc main_arg1) (ix1 a) := by
  exact (congrFun (V_v6 m c) (ix2 (0 : Fin 1) a)).trans (shapeCast_a_1a_apply _ _ 0 a)

/-! ## The blocks at a point -/

theorem iblk0_apply (c : Dev nD) (t : Fin cfg0.N) (p : Fin 2048) (k : Fin 2048) :
    iblk m c 0 t (ix2 p k) = V m c main_v0 (ix2 (⟨2048 * (t.val / 4) + p.val, rowLt t p⟩ : Fin 4096) k) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 2048 + 1 * p.val = 2048 * (t.val / 4) + p.val; rw [e0]; omega
  | ⟨1, _⟩ => show win0_0.index t 1 * 2048 + 1 * k.val = k.val; rw [e1]; omega
theorem iblk1_apply (c : Dev nD) (t : Fin cfg0.N) (q : Fin 1024) (k : Fin 2048) :
    iblk m c 1 t (ix2 q k) = V m c main_v0 (ix2 (⟨1024 * (t.val % 4) + q.val, colLt t q⟩ : Fin 4096) k) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t 0 * 1024 + 1 * q.val = 1024 * (t.val % 4) + q.val; rw [e0]; omega
  | ⟨1, _⟩ => show win0_1.index t 1 * 2048 + 1 * k.val = k.val; rw [e1]; omega
theorem iblk2_apply (c : Dev nD) (t : Fin cfg0.N) (p : Fin 2048) :
    iblk m c 2 t (ix2 p (0 : Fin 1)) = V m c main_v3 (ix2 (⟨2048 * (t.val / 4) + p.val, rowLt t p⟩ : Fin 4096) (0 : Fin 1)) := by
  obtain ⟨-, -, -, -, e0, e1, -⟩ := idx_facts t
  unfold iblk
  rw [View.read_apply]
  show V m c main_v3 _ = V m c main_v3 _
  congr 1
  funext a
  apply Fin.ext
  match a with
  | ⟨0, _⟩ => show win0_2.index t 0 * 2048 + 1 * p.val = 2048 * (t.val / 4) + p.val; rw [e0]; omega
  | ⟨1, _⟩ => show win0_2.index t 1 * 1 + 1 * 0 = 0; rw [e1]
theorem iblk3_apply (c : Dev nD) (t : Fin cfg0.N) (q : Fin 1024) :
    iblk m c 3 t (ix2 (0 : Fin 1) q) = V m c main_v4 (ix2 (0 : Fin 1) (⟨1024 * (t.val % 4) + q.val, colLt t q⟩ : Fin 4096)) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_3.index t 0 * 1 + 1 * 0 = 0; rw [e0]
  | ⟨1, _⟩ => show win0_3.index t 1 * 1024 + 1 * q.val = 1024 * (t.val % 4) + q.val; rw [e1]; omega
theorem iblk4_apply (c : Dev nD) (t : Fin cfg0.N) (p : Fin 2048) :
    iblk m c 4 t (ix2 p (0 : Fin 1)) = V m c main_v5 (ix2 (⟨2048 * (t.val / 4) + p.val, rowLt t p⟩ : Fin 4096) (0 : Fin 1)) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_4.index t 0 * 2048 + 1 * p.val = 2048 * (t.val / 4) + p.val; rw [e0]; omega
  | ⟨1, _⟩ => show win0_4.index t 1 * 1 + 1 * 0 = 0; rw [e1]
theorem iblk5_apply (c : Dev nD) (t : Fin cfg0.N) (q : Fin 1024) :
    iblk m c 5 t (ix2 (0 : Fin 1) q) = V m c main_v6 (ix2 (0 : Fin 1) (⟨1024 * (t.val % 4) + q.val, colLt t q⟩ : Fin 4096)) := by
  obtain ⟨-, -, -, -, -, -, -, -, -, -, e0, e1⟩ := idx_facts t
  unfold iblk
  rw [View.read_apply]
  show V m c main_v6 _ = V m c main_v6 _
  congr 1
  funext a
  apply Fin.ext
  match a with
  | ⟨0, _⟩ => show win0_5.index t 0 * 1 + 1 * 0 = 0; rw [e0]
  | ⟨1, _⟩ => show win0_5.index t 1 * 1024 + 1 * q.val = 1024 * (t.val % 4) + q.val; rw [e1]; omega

end Cert.KernelIdeal.Hand

end
-- ==== Proof.Spec.lean ====
/-
  What both programs compute, index by index, on the extended reals.

  For a matrix X of 4096 rows (2048 columns), a label per row and the rows' squared norms sq:
    gram i j   = the inner product of rows i and j;
    dist i j   = the Euclidean distance of rows i and j: with d = max (sq i + sq j - 2 gram i j) 0, it is sqrt d where
                 d > 0 and 0 elsewhere (the square root is taken of 1 where d is not positive, and discarded);
    pos  i     = the greatest dist i j over the rows j with the label of i (the fold of max from -inf, rows of another
                 label contributing -inf);
    neg  i     = the least dist i j over the rows j of another label (the fold of min from +inf).
  The loss is the mean over i of max (pos i - neg i + margin) 0, which both programs compute from pos and neg by
  the same host operations.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![4096, 2048]⟩
abbrev SY : Shape := ⟨1, ![4096]⟩

/-- The literals, as the programs spell them. -/
abbrev two : Ideal .f32 := FloatOps.ofBits .f32 0x40000000#32
abbrev zero : Ideal .f32 := FloatOps.ofBits .f32 0x00000000#32
abbrev one : Ideal .f32 := FloatOps.ofBits .f32 0x3F800000#32
abbrev ninf : Ideal .f32 := FloatOps.ofBits .f32 0xFF800000#32
abbrev pinf : Ideal .f32 := FloatOps.ofBits .f32 0x7F800000#32

variable (sq : SY.Idx → Ideal .f32) (X : SX.Idx → Ideal .f32) (Y : SY.Idx → BitVec 32)

/-- The inner product of rows `i` and `j`. -/
def gram (i j : Fin 4096) : Ideal .f32 := ∑ k : Fin 2048, X (ix2 i k) * X (ix2 j k)

/-- The squared distance of rows `i` and `j`, clamped at zero. -/
def d2 (i j : Fin 4096) : Ideal .f32 :=
  FloatOps.maximumf (FloatOps.subf (FloatOps.addf (sq (ix1 i)) (sq (ix1 j))) (FloatOps.mulf two (gram X i j))) zero

/-- Their distance: the root where the squared distance is positive, zero elsewhere. -/
def dist (i j : Fin 4096) : Ideal .f32 :=
  Scalar.select (Scalar.cmpf .ogt (d2 sq X i j) zero)
    (FloatOps.sqrt (Scalar.select (Scalar.cmpf .ogt (d2 sq X i j) zero) (d2 sq X i j) one)) zero

/-- Whether rows `i` and `j` carry one label. -/
def same (i j : Fin 4096) : BitVec 1 := IntOp.cmpi .eq (Y (ix1 i)) (Y (ix1 j))

/-- The hardest positive of row `i`. -/
def pos (i : Fin 4096) : Ideal .f32 :=
  (Finset.univ : Finset (Fin 4096)).fold max ninf fun j => Scalar.select (same Y i j) (dist sq X i j) ninf

/-- The hardest negative of row `i`. -/
def neg (i : Fin 4096) : Ideal .f32 :=
  (Finset.univ : Finset (Fin 4096)).fold min pinf fun j => Scalar.select (same Y i j) pinf (dist sq X i j)

end Cert.Spec

end
-- ==== Proof.IdealPayload.lean ====
/-
  The body's arithmetic read at an index, on the extended reals, over any blocks: an entry of the distance block is
  the distance formed from the two squared norms and the inner product of the two rows; an entry of the mask says
  whether the two labels are equal; a row of the new maximum (minimum) column is the max (min) of the old row and of
  the masked maximum (minimum) of the distance block's row over its 1024 columns, folded from -inf (+inf).
-/
import proofs.«100962_j67207648247978_1_alg».proof.Proof.Gen.KernelIdeal.Skeleton
import proofs.«100962_j67207648247978_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Layout operations of a column, read at an index -/

section Layout
variable {α : Type}

/-- An `[a]` array cast to `[a, 1]` reads, at `(i, u)`, the operand at `i`. -/
theorem shapeCast_a_a1_apply' {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product read at an index -/

theorem lhs_dot_0 (i : S2048x1024.Idx) (q : dot_S2048x2048_S2048x1024_S2048x1024_1_0_0_1_n_n.contr.Idx) :
    (dot_S2048x2048_S2048x1024_S2048x1024_1_0_0_1_n_n.lhsIdx i q 0).val = (i 0).val := by
  unfold DotDims.lhsIdx
  rw [dif_neg (show ¬(0 : Fin S2048x2048.rank) ∈ dot_S2048x2048_S2048x1024_S2048x1024_1_0_0_1_n_n.lhsBatch by decide), dif_pos (show (0 : Fin S2048x2048.rank) ∈ dot_S2048x2048_S2048x1024_S2048x1024_1_0_0_1_n_n.lhsNonContracting by decide)]
  rfl
theorem lhs_dot_1 (i : S2048x1024.Idx) (q : dot_S2048x2048_S2048x1024_S2048x1024_1_0_0_1_n_n.contr.Idx) :
    (dot_S2048x2048_S2048x1024_S2048x1024_1_0_0_1_n_n.lhsIdx i q 1).val = (q ⟨0, by decide⟩).val :=
  dot_S2048x2048_S2048x1024_S2048x1024_1_0_0_1_n_n.lhsIdx_val_of_single rfl i q
theorem rhs_dot_0 (i : S2048x1024.Idx) (q : dot_S2048x2048_S2048x1024_S2048x1024_1_0_0_1_n_n.contr.Idx) :
    (dot_S2048x2048_S2048x1024_S2048x1024_1_0_0_1_n_n.rhsIdx i q 0).val = (q ⟨0, by decide⟩).val :=
  dot_S2048x2048_S2048x1024_S2048x1024_1_0_0_1_n_n.rhsIdx_val_of_single rfl i q
theorem rhs_dot_1 (i : S2048x1024.Idx) (q : dot_S2048x2048_S2048x1024_S2048x1024_1_0_0_1_n_n.contr.Idx) :
    (dot_S2048x2048_S2048x1024_S2048x1024_1_0_0_1_n_n.rhsIdx i q 1).val = (i 1).val := by
  unfold DotDims.rhsIdx
  rw [dif_neg (show ¬(1 : Fin S2048x1024.rank) ∈ dot_S2048x2048_S2048x1024_S2048x1024_1_0_0_1_n_n.rhsBatch by decide), dif_pos (show (1 : Fin S2048x1024.rank) ∈ dot_S2048x2048_S2048x1024_S2048x1024_1_0_0_1_n_n.rhsNonContracting by decide)]
  rfl

/-- The matrix unit's product into a zero accumulator, at `(p, q)`: the sum over the contracted axis of the
    products of row `p` of the left operand and column `q` of the right one. -/
theorem matmul_entry (A : FVec Ideal S2048x2048 .bf16) (B : FVec Ideal S2048x1024 .bf16) (p : Fin 2048) (q : Fin 1024) :
    matmul dot_S2048x2048_S2048x1024_S2048x1024_1_0_0_1_n_n none A B (constant (F := Ideal) S2048x1024 .f32 0x00000000#32) (ix2 p q)
      = ∑ k : Fin 2048, A (ix2 p k) * B (ix2 k q) := by
  simp only [matmul]
  rw [Ideal.matmul_constant_zero_apply, ← Equiv.sum_comp (ValueIdx.contrEquiv1 dot_S2048x2048_S2048x1024_S2048x1024_1_0_0_1_n_n 2048 rfl rfl).symm]
  refine Finset.sum_congr rfl fun k _ => ?_
  have hk := ValueIdx.contrEquiv1_symm_val dot_S2048x2048_S2048x1024_S2048x1024_1_0_0_1_n_n 2048 rfl rfl k
  have el : dot_S2048x2048_S2048x1024_S2048x1024_1_0_0_1_n_n.lhsIdx (ix2 p q) ((ValueIdx.contrEquiv1 dot_S2048x2048_S2048x1024_S2048x1024_1_0_0_1_n_n 2048 rfl rfl).symm k) = ix2 p k := funext fun a => Fin.ext (by
    match a with
    | ⟨0, _⟩ => exact lhs_dot_0 _ _
    | ⟨1, _⟩ => exact (lhs_dot_1 _ _).trans hk)
  have er : dot_S2048x2048_S2048x1024_S2048x1024_1_0_0_1_n_n.rhsIdx (ix2 p q) ((ValueIdx.contrEquiv1 dot_S2048x2048_S2048x1024_S2048x1024_1_0_0_1_n_n 2048 rfl rfl).symm k) = ix2 k q := funext fun a => Fin.ext (by
    match a with
    | ⟨0, _⟩ => exact (rhs_dot_0 _ _).trans hk
    | ⟨1, _⟩ => exact rhs_dot_1 _ _)
  rw [el, er]

/-! ## The row maximum and minimum read at an index -/

/-- Row `p` of the reduced block with column `q` put back. -/
theorem lift_row (p : Fin 2048) (q : Fin 1024) :
    reduces_S2048x1024_S2048.lift (ix1 p) q = ix2 p q := by
  funext a
  apply Fin.ext
  match a with
  | ⟨0, _⟩ => rfl
  | ⟨1, _⟩ => rfl

/-- The maximum along axis 1 from -inf, at row `p`: the fold of max over the row's 1024 entries. -/
theorem rowMax_apply (src : FVec Ideal S2048x1024 .f32) (hφ : FKind.Formats .f32)
    (hacc : (0xFF800000#32 : BitVec 32) = FKind.maximumf.neutral .f32 hφ) (p : Fin 2048) :
    multiReduction .maximumf [1] S2048 src 0xFF800000#32 reduces_S2048x1024_S2048 hφ hacc (ix1 p)
      = (Finset.univ : Finset (Fin 1024)).fold max Cert.Spec.ninf fun q => src (ix2 p q) := by
  refine (Ideal.multiReduction_maximumf_single src 0xFF800000#32 reduces_S2048x1024_S2048 hφ hacc (ix1 p)).trans ?_
  show (Finset.univ : Finset (Fin 1024)).fold max Cert.Spec.ninf (fun q => src (reduces_S2048x1024_S2048.lift (ix1 p) q)) = _
  exact Finset.fold_congr fun q _ => congrArg src (lift_row p q)

/-- The minimum along axis 1 from +inf, at row `p`: the fold of min over the row's 1024 entries. -/
theorem rowMin_apply (src : FVec Ideal S2048x1024 .f32) (hφ : FKind.Formats .f32)
    (hacc : (0x7F800000#32 : BitVec 32) = FKind.minimumf.neutral .f32 hφ) (p : Fin 2048) :
    multiReduction .minimumf [1] S2048 src 0x7F800000#32 reduces_S2048x1024_S2048 hφ hacc (ix1 p)
      = (Finset.univ : Finset (Fin 1024)).fold min Cert.Spec.pinf fun q => src (ix2 p q) := by
  refine (multiReduction_minimumf_eq_fold src 0x7F800000#32 reduces_S2048x1024_S2048 hφ hacc (ix1 p)).trans ?_
  refine (reduces_S2048x1024_S2048.fold_filter_drop_single FloatOps.minimumf (FloatOps.ofBits .f32 0x7F800000#32) src (ix1 p)).trans ?_
  show (Finset.univ : Finset (Fin 1024)).fold min Cert.Spec.pinf (fun q => src (reduces_S2048x1024_S2048.lift (ix1 p) q)) = _
  exact Finset.fold_congr fun q _ => congrArg src (lift_row p q)

/-! ## The payloads -/

/-- The distance from the two squared norms `si`, `sj` and the inner product `g`. -/
def distS (si sj g : Ideal .f32) : Ideal .f32 :=
  Scalar.select (Scalar.cmpf .ogt (FloatOps.maximumf (FloatOps.subf (FloatOps.addf si sj) (FloatOps.mulf Cert.Spec.two g)) Cert.Spec.zero) Cert.Spec.zero)
    (FloatOps.sqrt (Scalar.select (Scalar.cmpf .ogt (FloatOps.maximumf (FloatOps.subf (FloatOps.addf si sj) (FloatOps.mulf Cert.Spec.two g)) Cert.Spec.zero) Cert.Spec.zero)
      (FloatOps.maximumf (FloatOps.subf (FloatOps.addf si sj) (FloatOps.mulf Cert.Spec.two g)) Cert.Spec.zero) Cert.Spec.one))
    Cert.Spec.zero

/-- The spec's distance is that function of the spec's norms and inner product. -/
theorem dist_eq_distS (sq : Cert.Spec.SY.Idx → Ideal .f32) (X : Cert.Spec.SX.Idx → Ideal .f32) (i j : Fin 4096) :
    Cert.Spec.dist sq X i j = distS (sq (ix1 i)) (sq (ix1 j)) (Cert.Spec.gram X i j) := rfl

/-- The distance block at an index, over blocks typed as float vectors. -/
theorem pay6_entry (x0 : FVec Ideal S2048x2048 .bf16) (x1 : FVec Ideal S1024x2048 .bf16) (x2 : FVec Ideal S2048x1 .f32) (x3 : FVec Ideal S1x1024 .f32)
    (p : Fin 2048) (q : Fin 1024) :
    k0_pay6 (F := Ideal) x0 x1 x2 x3 (ix2 p q)
      = distS (x2 (ix2 p (0 : Fin 1))) (x3 (ix2 (0 : Fin 1) q)) (∑ k : Fin 2048, x0 (ix2 p k) * x1 (ix2 q k)) := by
  have hg : matmul dot_S2048x2048_S2048x1024_S2048x1024_1_0_0_1_n_n none
        (shapeCast S2048x2048 x0 shapeCasts_S2048x2048_S2048x2048)
        (transpose S2048x1024 [1, 0] (shapeCast S1024x2048 x1 shapeCasts_S1024x2048_S1024x2048) transposes_S1024x2048_p1_0_S2048x1024)
        (constant (F := Ideal) S2048x1024 .f32 0x00000000#32) (ix2 p q) = ∑ k : Fin 2048, x0 (ix2 p k) * x1 (ix2 q k) := by
    rw [shapeCast_self, shapeCast_self]
    refine (matmul_entry _ _ p q).trans ?_
    refine Finset.sum_congr rfl fun k _ => ?_
    rw [transpose_ix2_apply]
  have ha : broadcastTo S2048x1024 (shapeCast S2048x1 x2 shapeCasts_S2048x1_S2048x1) broadcasts_S2048x1_S2048x1024 (ix2 p q) = x2 (ix2 p (0 : Fin 1)) := by
    rw [shapeCast_self]
    exact broadcastTo_a1_ab_apply _ _ p q
  have hb : broadcastTo S2048x1024 (shapeCast S1x1024 x3 shapeCasts_S1x1024_S1x1024) broadcasts_S1x1024_S2048x1024 (ix2 p q) = x3 (ix2 (0 : Fin 1) q) := by
    rw [shapeCast_self]
    exact broadcastTo_1b_ab_apply _ _ p q
  refine Eq.trans ?_ (congr (congr (congrArg distS ha) hb) hg)
  rfl

/-- An entry of the distance block: row `p` of the row block against row `q` of the column block. -/
theorem pay6_apply (x0 : Vec Ideal S2048x2048 .bf16) (x1 : Vec Ideal S1024x2048 .bf16) (x2 : Vec Ideal S2048x1 .f32) (x3 : Vec Ideal S1x1024 .f32)
    (p : Fin 2048) (q : Fin 1024) :
    k0_pay6 (F := Ideal) x0 x1 x2 x3 (ix2 p q)
      = distS (x2 (ix2 p (0 : Fin 1))) (x3 (ix2 (0 : Fin 1) q)) (∑ k : Fin 2048, x0 (ix2 p k) * x1 (ix2 q k)) := by
  exact pay6_entry x0 x1 x2 x3 p q

/-- An entry of the label mask. -/
theorem pay1_apply (x4 : Vec Ideal S2048x1 .i32) (x5 : Vec Ideal S1x1024 .i32) (p : Fin 2048) (q : Fin 1024) :
    k0_pay1 (k0_pay7 (F := Ideal) x4) (k0_pay8 (F := Ideal) x5) (ix2 p q) = IntOp.cmpi .eq (x4 (ix2 p (0 : Fin 1))) (x5 (ix2 (0 : Fin 1) q)) := by
  have ha : broadcastTo S2048x1024 (shapeCast S2048x1 (x4 : S2048x1.Idx → BitVec 32) shapeCasts_S2048x1_S2048x1) broadcasts_S2048x1_S2048x1024 (ix2 p q) = x4 (ix2 p (0 : Fin 1)) := by
    rw [shapeCast_self]
    exact broadcastTo_a1_ab_apply _ _ p q
  have hb : broadcastTo S2048x1024 (shapeCast S1x1024 (x5 : S1x1024.Idx → BitVec 32) shapeCasts_S1x1024_S1x1024) broadcasts_S1x1024_S2048x1024 (ix2 p q) = x5 (ix2 (0 : Fin 1) q) := by
    rw [shapeCast_self]
    exact broadcastTo_1b_ab_apply _ _ p q
  refine Eq.trans ?_ (congr (congrArg (IntOp.cmpi .eq) ha) hb)
  rfl

/-- A row of the new maximum column. -/
theorem pay2_apply (v29 : FVec Ideal S2048x1024 .f32) (v34 v35 : IVec S2048x1024 32) (prev : Vec Ideal S2048x1 .f32) (p : Fin 2048) :
    k0_pay2 (F := Ideal) v29 v34 v35 prev (ix2 p (0 : Fin 1))
      = max (prev (ix2 p (0 : Fin 1)))
          ((Finset.univ : Finset (Fin 1024)).fold max Cert.Spec.ninf fun q => Scalar.select (k0_pay1 v34 v35 (ix2 p q)) (v29 (ix2 p q)) Cert.Spec.ninf) := by
  unfold k0_pay2
  refine (congrFun (shapeCast_self _ _) _).trans ?_
  refine congrArg (max (prev (ix2 p (0 : Fin 1)))) ?_
  refine (shapeCast_a_a1_apply' _ _ p 0).trans ?_
  exact rowMax_apply _ _ _ p

/-- A row of the new minimum column. -/
theorem pay3_apply (v29 : FVec Ideal S2048x1024 .f32) (v34 v35 : IVec S2048x1024 32) (prev : Vec Ideal S2048x1 .f32) (p : Fin 2048) :
    k0_pay3 (F := Ideal) v29 v34 v35 prev (ix2 p (0 : Fin 1))
      = min (prev (ix2 p (0 : Fin 1)))
          ((Finset.univ : Finset (Fin 1024)).fold min Cert.Spec.pinf fun q => Scalar.select (k0_pay1 v34 v35 (ix2 p q)) Cert.Spec.pinf (v29 (ix2 p q))) := by
  unfold k0_pay3
  refine (congrFun (shapeCast_self _ _) _).trans ?_
  refine congrArg (min (prev (ix2 p (0 : Fin 1)))) ?_
  refine (shapeCast_a_a1_apply' _ _ p 0).trans ?_
  exact rowMin_apply _ _ _ p

/-- The reset columns: all -inf, all +inf. -/
theorem pay4_apply (p : Fin 2048) : k0_pay4 (F := Ideal) (ix2 p (0 : Fin 1)) = Cert.Spec.ninf := by
  unfold k0_pay4
  exact congrFun (shapeCast_self _ _) _
theorem pay5_apply (p : Fin 2048) : k0_pay5 (F := Ideal) (ix2 p (0 : Fin 1)) = Cert.Spec.pinf := by
  unfold k0_pay5
  exact congrFun (shapeCast_self _ _) _

end Cert.KernelIdeal.Hand

end
-- ==== Proof.SpecFold.lean ====
/-
  A maximum (minimum) over 4096 columns taken in four blocks of 1024: folding the blocks' maxima, in order, into
  -inf gives the maximum over all columns. Only that max is associative, commutative and has -inf as its unit is
  used (likewise min and +inf).
-/
import proofs.«100962_j67207648247978_1_alg».proof.Proof.Spec
import Mathlib.Data.Finset.Lattice.Fold

noncomputable section

namespace Cert.Spec

open Idealize.ShloMosaic

/-- The maximum of `f` over column block `b`. -/
def blkMax (f : Fin 4096 → Ideal .f32) (b : Fin 4) : Ideal .f32 :=
  (Finset.univ : Finset (Fin 1024)).fold max ninf fun q => f ⟨1024 * b.val + q.val, by omega⟩

/-- The minimum of `f` over column block `b`. -/
def blkMin (f : Fin 4096 → Ideal .f32) (b : Fin 4) : Ideal .f32 :=
  (Finset.univ : Finset (Fin 1024)).fold min pinf fun q => f ⟨1024 * b.val + q.val, by omega⟩

/-! ### The two infinities, and a fold of max (min) from them as a supremum (infimum) -/

/-- The literal -inf is the least extended real. -/
theorem ninf_eq_bot : ninf = (⊥ : EReal) := by
  simp [Ideal.ofBits, Ideal.ieee]

/-- The literal +inf is the greatest extended real. -/
theorem pinf_eq_top : pinf = (⊤ : EReal) := by
  simp [Ideal.ofBits, Ideal.ieee]

/-- Folding max from -inf over a finite set is the supremum over it: the supremum of a finite set is by definition
    the fold of the binary supremum from the least element. -/
theorem fold_max_eq_sup {ι : Type*} (s : Finset ι) (f : ι → Ideal .f32) : s.fold max ninf f = s.sup f := by
  rw [ninf_eq_bot]; rfl

/-- Folding min from +inf over a finite set is the infimum over it. -/
theorem fold_min_eq_inf {ι : Type*} (s : Finset ι) (f : ι → Ideal .f32) : s.fold min pinf f = s.inf f := by
  rw [pinf_eq_top]; rfl

/-! ### Columns and blocks -/

/-- Column `j` is entry `j % 1024` of block `j / 1024`. -/
private theorem col_split (j : Fin 4096) :
    j = ⟨1024 * (⟨j.val / 1024, by omega⟩ : Fin 4).val + (⟨j.val % 1024, by omega⟩ : Fin 1024).val, by omega⟩ := by
  apply Fin.ext; show j.val = 1024 * (j.val / 1024) + j.val % 1024; omega

/-- Every column is below the maximum of the block that holds it. -/
private theorem le_blkMax (f : Fin 4096 → Ideal .f32) (j : Fin 4096) :
    f j ≤ blkMax f ⟨j.val / 1024, by omega⟩ := by
  unfold blkMax
  rw [fold_max_eq_sup]
  calc f j = f ⟨1024 * (j.val / 1024) + j.val % 1024, by omega⟩ := congrArg f (col_split j)
    _ ≤ _ := Finset.le_sup (f := fun q : Fin 1024 => f ⟨1024 * (j.val / 1024) + q.val, by omega⟩)
      (Finset.mem_univ (⟨j.val % 1024, by omega⟩ : Fin 1024))

/-- A block's maximum is below the maximum over all columns: each of its entries is a column. -/
private theorem blkMax_le (f : Fin 4096 → Ideal .f32) (b : Fin 4) :
    blkMax f b ≤ (Finset.univ : Finset (Fin 4096)).sup f := by
  unfold blkMax
  rw [fold_max_eq_sup]
  exact Finset.sup_le fun q _ => Finset.le_sup (Finset.mem_univ _)

/-- Every column is above the minimum of the block that holds it. -/
private theorem blkMin_le (f : Fin 4096 → Ideal .f32) (j : Fin 4096) :
    blkMin f ⟨j.val / 1024, by omega⟩ ≤ f j := by
  unfold blkMin
  rw [fold_min_eq_inf]
  calc _ ≤ f ⟨1024 * (j.val / 1024) + j.val % 1024, by omega⟩ :=
        Finset.inf_le (f := fun q : Fin 1024 => f ⟨1024 * (j.val / 1024) + q.val, by omega⟩)
          (Finset.mem_univ (⟨j.val % 1024, by omega⟩ : Fin 1024))
    _ = f j := (congrArg f (col_split j)).symm

/-- A block's minimum is above the minimum over all columns. -/
private theorem le_blkMin (f : Fin 4096 → Ideal .f32) (b : Fin 4) :
    (Finset.univ : Finset (Fin 4096)).inf f ≤ blkMin f b := by
  unfold blkMin
  rw [fold_min_eq_inf]
  exact Finset.le_inf fun q _ => Finset.inf_le (Finset.mem_univ _)

/-! ### Four values folded in order -/

/-- The supremum over a four-element index set is the in-order fold of max from the least element: each side is
    the least upper bound of the four values. -/
private theorem sup_fin4 (g : Fin 4 → Ideal .f32) :
    (Finset.univ : Finset (Fin 4)).sup g = max (max (max (max ⊥ (g 0)) (g 1)) (g 2)) (g 3) := by
  apply le_antisymm
  · refine Finset.sup_le fun b _ => ?_
    match b with
    | ⟨0, _⟩ => exact le_max_of_le_left (le_max_of_le_left (le_max_of_le_left (le_max_right _ _)))
    | ⟨1, _⟩ => exact le_max_of_le_left (le_max_of_le_left (le_max_right _ _))
    | ⟨2, _⟩ => exact le_max_of_le_left (le_max_right _ _)
    | ⟨3, _⟩ => exact le_max_right _ _
  · exact max_le (max_le (max_le (max_le bot_le (Finset.le_sup (Finset.mem_univ _)))
      (Finset.le_sup (Finset.mem_univ _))) (Finset.le_sup (Finset.mem_univ _))) (Finset.le_sup (Finset.mem_univ _))

/-- The infimum over a four-element index set is the in-order fold of min from the greatest element. -/
private theorem inf_fin4 (g : Fin 4 → Ideal .f32) :
    (Finset.univ : Finset (Fin 4)).inf g = min (min (min (min ⊤ (g 0)) (g 1)) (g 2)) (g 3) := by
  apply le_antisymm
  · exact le_min (le_min (le_min (le_min le_top (Finset.inf_le (Finset.mem_univ _)))
      (Finset.inf_le (Finset.mem_univ _))) (Finset.inf_le (Finset.mem_univ _))) (Finset.inf_le (Finset.mem_univ _))
  · refine Finset.le_inf fun b _ => ?_
    match b with
    | ⟨0, _⟩ => exact min_le_of_left_le (min_le_of_left_le (min_le_of_left_le (min_le_right _ _)))
    | ⟨1, _⟩ => exact min_le_of_left_le (min_le_of_left_le (min_le_right _ _))
    | ⟨2, _⟩ => exact min_le_of_left_le (min_le_right _ _)
    | ⟨3, _⟩ => exact min_le_right _ _

/-! ### The maximum (minimum) over all columns from the four blocks -/

theorem fold_max_blocks (f : Fin 4096 → Ideal .f32) :
    (Finset.univ : Finset (Fin 4096)).fold max ninf f
      = max (max (max (max ninf (blkMax f 0)) (blkMax f 1)) (blkMax f 2)) (blkMax f 3) := by
  -- both sides are least upper bounds: of all columns, and of the four blocks' maxima
  rw [fold_max_eq_sup, ninf_eq_bot, ← sup_fin4 (blkMax f)]
  apply le_antisymm
  · exact Finset.sup_le fun j _ =>
      le_trans (le_blkMax f j) (Finset.le_sup (f := blkMax f) (Finset.mem_univ _))
  · exact Finset.sup_le fun b _ => blkMax_le f b

theorem fold_min_blocks (f : Fin 4096 → Ideal .f32) :
    (Finset.univ : Finset (Fin 4096)).fold min pinf f
      = min (min (min (min pinf (blkMin f 0)) (blkMin f 1)) (blkMin f 2)) (blkMin f 3) := by
  -- both sides are greatest lower bounds: of all columns, and of the four blocks' minima
  rw [fold_min_eq_inf, pinf_eq_top, ← inf_fin4 (blkMin f)]
  apply le_antisymm
  · exact Finset.le_inf fun b _ => le_blkMin f b
  · exact Finset.le_inf fun j _ =>
      le_trans (Finset.inf_le (f := blkMin f) (Finset.mem_univ _)) (blkMin_le f j)

end Cert.Spec

end
-- ==== Proof.IdealValuePoint.lean ====
/-
  One grid point on the extended reals. At point t = 4 i + j the body forms, for the 2048 rows of row block i and
  the 1024 rows of column block j, the distances and the label mask, and folds the masked row maximum (minimum) of
  the block into the running column: row p of the new column is the max (min) of row p of the old one and of the
  block's masked maximum (minimum) along row 2048 i + p of the whole distance matrix, columns 1024 j .. 1024 j + 1023.
  The bf16 copy of X is X itself on the extended reals, the matrix unit's product into a zero accumulator is the
  sum of products, and the squared norms enter as the host computed them.
-/
import proofs.«100962_j67207648247978_1_alg».proof.Proof.IdealEntry
import proofs.«100962_j67207648247978_1_alg».proof.Proof.IdealPayload
import proofs.«100962_j67207648247978_1_alg».proof.Proof.SpecFold
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The masked distances along row `R`, for the maximum: a column of another label contributes -inf. -/
abbrev posRow (c : Dev nD) (R : Fin 4096) (j : Fin 4096) : Ideal .f32 :=
  Scalar.select (Cert.Spec.same (m ((c.tc : Thread nD τ).loc main_arg1)) R j)
    (Cert.Spec.dist (sqK (m ((c.tc : Thread nD τ).loc main_arg0))) (m ((c.tc : Thread nD τ).loc main_arg0)) R j) Cert.Spec.ninf
/-- The masked distances along row `R`, for the minimum: a column of the same label contributes +inf. -/
abbrev negRow (c : Dev nD) (R : Fin 4096) (j : Fin 4096) : Ideal .f32 :=
  Scalar.select (Cert.Spec.same (m ((c.tc : Thread nD τ).loc main_arg1)) R j) Cert.Spec.pinf
    (Cert.Spec.dist (sqK (m ((c.tc : Thread nD τ).loc main_arg0))) (m ((c.tc : Thread nD τ).loc main_arg0)) R j)

/-! ## One entry of the block at point `t`, in terms of the two arguments

  Row `p` of the block is row `R = 2048 (t / 4) + p` of the matrix and column `q` of the block is row
  `C = 1024 (t % 4) + q`: the mask entry compares the labels of `R` and `C`, the distance entry is the distance of
  rows `R` and `C`. -/

/-- The mask entry `(p, q)` of the block at point `t`: whether rows `R` and `C` carry one label. -/
theorem maskAt (c : Dev nD) (t : Fin cfg0.N) (p : Fin 2048) (q : Fin 1024) :
    k0_pay1 (k0_pay7 (F := Ideal) (iblk m c 4 t)) (k0_pay8 (F := Ideal) (iblk m c 5 t)) (ix2 p q)
      = Cert.Spec.same (m ((c.tc : Thread nD τ).loc main_arg1))
          ⟨2048 * (t.val / 4) + p.val, rowLt t p⟩ ⟨1024 * (t.val % 4) + q.val, colLt t q⟩ := by
  refine (pay1_apply (iblk m c 4 t) (iblk m c 5 t) p q).trans ?_
  unfold Cert.Spec.same
  rw [iblk4_apply, iblk5_apply, Vv5_apply, Vv6_apply]

/-- The distance entry `(p, q)` of the block at point `t`: the distance of rows `R` and `C`, the squared norms
    being the host's and the inner product the sum over the 2048 columns of X. -/
theorem distAt (c : Dev nD) (t : Fin cfg0.N) (p : Fin 2048) (q : Fin 1024) :
    k0_pay6 (F := Ideal) (iblk m c 0 t) (iblk m c 1 t) (iblk m c 2 t) (iblk m c 3 t) (ix2 p q)
      = Cert.Spec.dist (sqK (m ((c.tc : Thread nD τ).loc main_arg0))) (m ((c.tc : Thread nD τ).loc main_arg0))
          ⟨2048 * (t.val / 4) + p.val, rowLt t p⟩ ⟨1024 * (t.val % 4) + q.val, colLt t q⟩ := by
  refine (pay6_apply (iblk m c 0 t) (iblk m c 1 t) (iblk m c 2 t) (iblk m c 3 t) p q).trans ?_
  rw [dist_eq_distS, iblk2_apply, iblk3_apply, Vv3_apply, Vv4_apply]
  refine congrArg (distS _ _) ?_
  unfold Cert.Spec.gram
  refine Finset.sum_congr rfl fun k _ => ?_
  rw [iblk0_apply, iblk1_apply, Vv0_apply, Vv0_apply]

/-! ## The two folds at a point -/

theorem posStep_apply (c : Dev nD) (t : Fin cfg0.N) (prev : Vec Ideal S2048x1 .f32) (p : Fin 2048) :
    posStep (F := Ideal) m c t prev (ix2 p (0 : Fin 1))
      = max (prev (ix2 p (0 : Fin 1)))
          (Cert.Spec.blkMax (posRow m c ⟨2048 * (t.val / 4) + p.val, rowLt t p⟩)
            ⟨t.val % 4, Nat.mod_lt _ (by decide)⟩) := by
  unfold posStep
  refine (pay2_apply _ _ _ prev p).trans ?_
  refine congrArg (max (prev (ix2 p (0 : Fin 1)))) ?_
  unfold Cert.Spec.blkMax
  refine Finset.fold_congr fun q _ => ?_
  rw [maskAt m c t p q, distAt m c t p q]

theorem negStep_apply (c : Dev nD) (t : Fin cfg0.N) (prev : Vec Ideal S2048x1 .f32) (p : Fin 2048) :
    negStep (F := Ideal) m c t prev (ix2 p (0 : Fin 1))
      = min (prev (ix2 p (0 : Fin 1)))
          (Cert.Spec.blkMin (negRow m c ⟨2048 * (t.val / 4) + p.val, rowLt t p⟩)
            ⟨t.val % 4, Nat.mod_lt _ (by decide)⟩) := by
  unfold negStep
  refine (pay3_apply _ _ _ prev p).trans ?_
  refine congrArg (min (prev (ix2 p (0 : Fin 1)))) ?_
  unfold Cert.Spec.blkMin
  refine Finset.fold_congr fun q _ => ?_
  rw [maskAt m c t p q, distAt m c t p q]

end Cert.KernelIdeal.Hand

end
-- ==== Proof.IdealValue.lean ====
/-
  What the two result columns hold after the region, on the extended reals: row r of the first is the hardest
  positive of row r, of the second the hardest negative. Row block i of each result is written back once, at point
  4 i + 3, from the running column there; that column is the four column blocks' maxima (minima) of the row folded
  in order into -inf (+inf), which is the maximum (minimum) over all 4096 columns.
-/
import proofs.«100962_j67207648247978_1_alg».proof.Proof.IdealValuePoint

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## Each result as one function of its row

Row `y` of a result lies in row block `y / 2048`, which is written back at the one point `4 (y / 2048) + 3`, from
row `y mod 2048` of the running column there. -/

/-- The running columns depend on the position only, not on the evidence that it is a point of the grid. -/
private theorem scr_congr (c : Dev nD) {n n' : ℕ} (e : n = n') (h : n < cfg0.N) (h' : n' < cfg0.N) :
    scr (F := Ideal) m c n h = scr (F := Ideal) m c n' h' := by subst e; rfl

/-- The last column block of a row's row block is a point of the grid. -/
private theorem rowPt (y : S4096x1.Idx) : 4 * ((y 0).val / 2048) + 3 < cfg0.N := by
  rw [N_eq]; have := idx2_lt0 y; omega

/-- The first result, row by row: the running maximum at the last column block of the row's row block. -/
private def G6 (c : Dev nD) : S4096x1.Idx → Ideal .f32 := fun y =>
  (scr (F := Ideal) m c (4 * ((y 0).val / 2048) + 3) (rowPt y)).1
    (ix2 (⟨(y 0).val % 2048, Nat.mod_lt _ (by decide)⟩ : Fin 2048) (0 : Fin 1))

/-- The second result, row by row: the running minimum at the same point. -/
private def G7 (c : Dev nD) : S4096x1.Idx → Ideal .f32 := fun y =>
  (scr (F := Ideal) m c (4 * ((y 0).val / 2048) + 3) (rowPt y)).2
    (ix2 (⟨(y 0).val % 2048, Nat.mod_lt _ (by decide)⟩ : Fin 2048) (0 : Fin 1))

/-- At row `2048 (t / 4) + p`, `t` a last column block, the first result reads row `p` of the running maximum at `t`. -/
private theorem G6_eq (c : Dev nD) (y : S4096x1.Idx) (t : Fin cfg0.N) (p : Fin 2048) (h3 : t.val % 4 = 3)
    (hy : (y 0).val = 2048 * (t.val / 4) + p.val) :
    G6 m c y = (scr (F := Ideal) m c t.val t.isLt).1 (ix2 p (0 : Fin 1)) := by
  unfold G6
  have e1 : 4 * ((y 0).val / 2048) + 3 = t.val := by have := p.isLt; omega
  have e2 : (⟨(y 0).val % 2048, Nat.mod_lt _ (by decide)⟩ : Fin 2048) = p :=
    Fin.ext (by show (y 0).val % 2048 = p.val; have := p.isLt; omega)
  rw [e2, scr_congr m c e1 (rowPt y) t.isLt]

/-- Likewise the second result and the running minimum. -/
private theorem G7_eq (c : Dev nD) (y : S4096x1.Idx) (t : Fin cfg0.N) (p : Fin 2048) (h3 : t.val % 4 = 3)
    (hy : (y 0).val = 2048 * (t.val / 4) + p.val) :
    G7 m c y = (scr (F := Ideal) m c t.val t.isLt).2 (ix2 p (0 : Fin 1)) := by
  unfold G7
  have e1 : 4 * ((y 0).val / 2048) + 3 = t.val := by have := p.isLt; omega
  have e2 : (⟨(y 0).val % 2048, Nat.mod_lt _ (by decide)⟩ : Fin 2048) = p :=
    Fin.ext (by show (y 0).val % 2048 = p.val; have := p.isLt; omega)
  rw [e2, scr_congr m c e1 (rowPt y) t.isLt]

/-- The block of either result at point `t = 4 i + j` is row block `i` (and the one column). -/
private theorem idx6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)
private theorem idx7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- What a last column block `t` writes back into the first result is row block `t / 4` of `G6`: row `p` of the block
    is row `2048 (t / 4) + p` of the array, whose point is `t` again. -/
private theorem flushed6_eq (c : Dev nD) (t : Fin cfg0.N) (hf : (cfg0.win 6).flush t = true) :
    (dats (F := Ideal) m 0 c).flushed 6 t = ((cfg0.win 6).blk t).view.read (Elt Ideal) (G6 m c) := by
  have h3 : t.val % 4 = 3 := (flush0_6 t).mp hf
  obtain ⟨e0, e1⟩ := idx6 t
  show (cfg0.win 6).cut (grid0.coords t) ((dats (F := Ideal) m 0 c).after 6 t) = _
  rw [after_6]
  funext j
  rw [View.read_apply]
  have hj0 : (j 0).val < 2048 := (j 0).isLt
  have hv : ((((cfg0.win 6).blk t).view.emb j) 0 : ℕ) = win0_6.index t (0 : Fin 2) * 2048 + 1 * (j 0).val := rfl
  show (scr (F := Ideal) m c t.val t.isLt).1 ((cfg0.win 6).xinj (grid0.coords t) j) = G6 m c (((cfg0.win 6).blk t).view.emb j)
  rw [G6_eq m c _ t ⟨(j 0).val, hj0⟩ h3 (by rw [hv, e0]; show _ = 2048 * (t.val / 4) + (j 0).val; omega)]
  refine congrArg (scr (F := Ideal) m c t.val t.isLt).1 (funext fun a => ?_)
  match a with
  | ⟨0, _⟩ => rfl
  | ⟨1, _⟩ => exact Fin.ext (by show (j 1).val = 0; have : (j 1).val < 1 := (j 1).isLt; omega)

private theorem flushed7_eq (c : Dev nD) (t : Fin cfg0.N) (hf : (cfg0.win 7).flush t = true) :
    (dats (F := Ideal) m 0 c).flushed 7 t = ((cfg0.win 7).blk t).view.read (Elt Ideal) (G7 m c) := by
  have h3 : t.val % 4 = 3 := (flush0_7 t).mp hf
  obtain ⟨e0, e1⟩ := idx7 t
  show (cfg0.win 7).cut (grid0.coords t) ((dats (F := Ideal) m 0 c).after 7 t) = _
  rw [after_7]
  funext j
  rw [View.read_apply]
  have hj0 : (j 0).val < 2048 := (j 0).isLt
  have hv : ((((cfg0.win 7).blk t).view.emb j) 0 : ℕ) = win0_7.index t (0 : Fin 2) * 2048 + 1 * (j 0).val := rfl
  show (scr (F := Ideal) m c t.val t.isLt).2 ((cfg0.win 7).xinj (grid0.coords t) j) = G7 m c (((cfg0.win 7).blk t).view.emb j)
  rw [G7_eq m c _ t ⟨(j 0).val, hj0⟩ h3 (by rw [hv, e0]; show _ = 2048 * (t.val / 4) + (j 0).val; omega)]
  refine congrArg (scr (F := Ideal) m c t.val t.isLt).2 (funext fun a => ?_)
  match a with
  | ⟨0, _⟩ => rfl
  | ⟨1, _⟩ => exact Fin.ext (by show (j 1).val = 0; have : (j 1).val < 1 := (j 1).isLt; omega)

/-- An index of a result is in the block of point `t` iff each coordinate is in the block's range on its axis. -/
private theorem mem_blk6 (t : Fin cfg0.N) (i : S4096x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v7_0).slice (win0_6.rect t)).set ↔ _
  rw [View.set_slice_whole, Rect.mem_set_unit]
  exact Iff.rfl
private theorem mem_blk7 (t : Fin cfg0.N) (i : S4096x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v7_1).slice (win0_7.rect t)).set ↔ _
  rw [View.set_slice_whole, Rect.mem_set_unit]
  exact Iff.rfl

/-- Row `r` of the first result after the region is row `r mod 2048` of the running maximum column at the last column
    block of its row block. -/
theorem arrAt6_apply (c : Dev nD) (r : Fin 4096) :
    (dats (F := Ideal) m 0 c).arrAt 6 cfg0.N (ix2 r (0 : Fin 1))
      = (scr (F := Ideal) m c (4 * (r.val / 2048) + 3) (by rw [N_eq]; omega)).1 (ix2 (⟨r.val % 2048, Nat.mod_lt _ (by decide)⟩ : Fin 2048) (0 : Fin 1)) := by
  -- row r is covered by the write-back at point 4 (r / 2048) + 3, and every write-back writes its block of G6
  have hlt : 4 * (r.val / 2048) + 3 < cfg0.N := by rw [N_eq]; omega
  have hf : (cfg0.win 6).flush ⟨4 * (r.val / 2048) + 3, hlt⟩ = true :=
    (flush0_6 _).mpr (by show (4 * (r.val / 2048) + 3) % 4 = 3; omega)
  have hmem : (ix2 r (0 : Fin 1) : S4096x1.Idx) ∈ ((cfg0.win 6).blk ⟨4 * (r.val / 2048) + 3, hlt⟩).view.set := by
    rw [mem_blk6]
    obtain ⟨e0, e1⟩ := idx6 ⟨4 * (r.val / 2048) + 3, hlt⟩
    intro a
    match a with
    | ⟨0, _⟩ =>
      show win0_6.index _ (0 : Fin 2) * 2048 ≤ r.val ∧ r.val < win0_6.index _ (0 : Fin 2) * 2048 + 2048
      rw [e0]
      show (4 * (r.val / 2048) + 3) / 4 * 2048 ≤ r.val ∧ r.val < (4 * (r.val / 2048) + 3) / 4 * 2048 + 2048
      omega
    | ⟨1, _⟩ =>
      show win0_6.index _ (1 : Fin 2) * 1 ≤ 0 ∧ 0 < win0_6.index _ (1 : Fin 2) * 1 + 1
      rw [e1]; omega
  exact (dats (F := Ideal) m 0 c).arrAt_apply_of_mem 6 (G6 m c) (fun t hf => flushed6_eq m c t hf) cfg0.N
    ⟨4 * (r.val / 2048) + 3, hlt⟩ (ix2 r (0 : Fin 1)) hlt hf hmem

theorem arrAt7_apply (c : Dev nD) (r : Fin 4096) :
    (dats (F := Ideal) m 0 c).arrAt 7 cfg0.N (ix2 r (0 : Fin 1))
      = (scr (F := Ideal) m c (4 * (r.val / 2048) + 3) (by rw [N_eq]; omega)).2 (ix2 (⟨r.val % 2048, Nat.mod_lt _ (by decide)⟩ : Fin 2048) (0 : Fin 1)) := by
  have hlt : 4 * (r.val / 2048) + 3 < cfg0.N := by rw [N_eq]; omega
  have hf : (cfg0.win 7).flush ⟨4 * (r.val / 2048) + 3, hlt⟩ = true :=
    (flush0_7 _).mpr (by show (4 * (r.val / 2048) + 3) % 4 = 3; omega)
  have hmem : (ix2 r (0 : Fin 1) : S4096x1.Idx) ∈ ((cfg0.win 7).blk ⟨4 * (r.val / 2048) + 3, hlt⟩).view.set := by
    rw [mem_blk7]
    obtain ⟨e0, e1⟩ := idx7 ⟨4 * (r.val / 2048) + 3, hlt⟩
    intro a
    match a with
    | ⟨0, _⟩ =>
      show win0_7.index _ (0 : Fin 2) * 2048 ≤ r.val ∧ r.val < win0_7.index _ (0 : Fin 2) * 2048 + 2048
      rw [e0]
      show (4 * (r.val / 2048) + 3) / 4 * 2048 ≤ r.val ∧ r.val < (4 * (r.val / 2048) + 3) / 4 * 2048 + 2048
      omega
    | ⟨1, _⟩ =>
      show win0_7.index _ (1 : Fin 2) * 1 ≤ 0 ∧ 0 < win0_7.index _ (1 : Fin 2) * 1 + 1
      rw [e1]; omega
  exact (dats (F := Ideal) m 0 c).arrAt_apply_of_mem 7 (G7 m c) (fun t hf => flushed7_eq m c t hf) cfg0.N
    ⟨4 * (r.val / 2048) + 3, hlt⟩ (ix2 r (0 : Fin 1)) hlt hf hmem

/-! ## The running columns at a last column block

Within a row block the columns restart at column block 0 and fold one block's masked row maximum (minimum) at each of
column blocks 1, 2, 3; at column block 3 they hold the four blocks' values folded in order into -inf (+inf). -/

/-- A later column block folds its masked maximum along row `R` into the running maximum. -/
private theorem scr_fst_step (c : Dev nD) (n : ℕ) (h : n + 1 < cfg0.N) (hm : ¬ (n + 1) % 4 = 0) (p : Fin 2048)
    (R : Fin 4096) (b : Fin 4) (hR : R.val = 2048 * ((n + 1) / 4) + p.val) (hb : b.val = (n + 1) % 4) :
    (scr (F := Ideal) m c (n + 1) h).1 (ix2 p (0 : Fin 1))
      = max ((scr (F := Ideal) m c n (Nat.lt_of_succ_lt h)).1 (ix2 p (0 : Fin 1))) (Cert.Spec.blkMax (posRow m c R) b) := by
  have eR : R = ⟨2048 * ((n + 1) / 4) + p.val, rowLt ⟨n + 1, h⟩ p⟩ := Fin.ext hR
  have eb : b = ⟨(n + 1) % 4, Nat.mod_lt _ (by decide)⟩ := Fin.ext hb
  subst eR eb
  have h1 : (scr (F := Ideal) m c (n + 1) h).1
      = posStep (F := Ideal) m c ⟨n + 1, h⟩ (scr (F := Ideal) m c n (Nat.lt_of_succ_lt h)).1 :=
    congrArg Prod.fst (scr_step (F := Ideal) m c ⟨n + 1, h⟩ hm)
  rw [h1]
  exact posStep_apply m c ⟨n + 1, h⟩ _ p

/-- and its masked minimum into the running minimum. -/
private theorem scr_snd_step (c : Dev nD) (n : ℕ) (h : n + 1 < cfg0.N) (hm : ¬ (n + 1) % 4 = 0) (p : Fin 2048)
    (R : Fin 4096) (b : Fin 4) (hR : R.val = 2048 * ((n + 1) / 4) + p.val) (hb : b.val = (n + 1) % 4) :
    (scr (F := Ideal) m c (n + 1) h).2 (ix2 p (0 : Fin 1))
      = min ((scr (F := Ideal) m c n (Nat.lt_of_succ_lt h)).2 (ix2 p (0 : Fin 1))) (Cert.Spec.blkMin (negRow m c R) b) := by
  have eR : R = ⟨2048 * ((n + 1) / 4) + p.val, rowLt ⟨n + 1, h⟩ p⟩ := Fin.ext hR
  have eb : b = ⟨(n + 1) % 4, Nat.mod_lt _ (by decide)⟩ := Fin.ext hb
  subst eR eb
  have h1 : (scr (F := Ideal) m c (n + 1) h).2
      = negStep (F := Ideal) m c ⟨n + 1, h⟩ (scr (F := Ideal) m c n (Nat.lt_of_succ_lt h)).2 :=
    congrArg Prod.snd (scr_step (F := Ideal) m c ⟨n + 1, h⟩ hm)
  rw [h1]
  exact negStep_apply m c ⟨n + 1, h⟩ _ p

/-- A first column block folds its masked maximum along row `R` into -inf. -/
private theorem scr_fst_reset (c : Dev nD) (n : ℕ) (h : n < cfg0.N) (hm : n % 4 = 0) (p : Fin 2048)
    (R : Fin 4096) (b : Fin 4) (hR : R.val = 2048 * (n / 4) + p.val) (hb : b.val = n % 4) :
    (scr (F := Ideal) m c n h).1 (ix2 p (0 : Fin 1)) = max Cert.Spec.ninf (Cert.Spec.blkMax (posRow m c R) b) := by
  have eR : R = ⟨2048 * (n / 4) + p.val, rowLt ⟨n, h⟩ p⟩ := Fin.ext hR
  have eb : b = ⟨n % 4, Nat.mod_lt _ (by decide)⟩ := Fin.ext hb
  subst eR eb
  have h0 := scr_reset (F := Ideal) m c ⟨n, h⟩ hm
  have h1 : (scr (F := Ideal) m c n h).1 = posStep (F := Ideal) m c ⟨n, h⟩ (k0_pay4 (F := Ideal)) := by
    rw [h0]
  rw [h1, posStep_apply m c ⟨n, h⟩ _ p, pay4_apply]

/-- and its masked minimum into +inf. -/
private theorem scr_snd_reset (c : Dev nD) (n : ℕ) (h : n < cfg0.N) (hm : n % 4 = 0) (p : Fin 2048)
    (R : Fin 4096) (b : Fin 4) (hR : R.val = 2048 * (n / 4) + p.val) (hb : b.val = n % 4) :
    (scr (F := Ideal) m c n h).2 (ix2 p (0 : Fin 1)) = min Cert.Spec.pinf (Cert.Spec.blkMin (negRow m c R) b) := by
  have eR : R = ⟨2048 * (n / 4) + p.val, rowLt ⟨n, h⟩ p⟩ := Fin.ext hR
  have eb : b = ⟨n % 4, Nat.mod_lt _ (by decide)⟩ := Fin.ext hb
  subst eR eb
  have h0 := scr_reset (F := Ideal) m c ⟨n, h⟩ hm
  have h1 : (scr (F := Ideal) m c n h).2 = negStep (F := Ideal) m c ⟨n, h⟩ (k0_pay5 (F := Ideal)) := by
    rw [h0]
  rw [h1, negStep_apply m c ⟨n, h⟩ _ p, pay5_apply]

/-- Row `p` of the running maximum column at the last column block of row block `i` is the maximum over all 4096
    columns of the masked distances along row `2048 i + p`: the four column blocks' maxima folded in order into -inf. -/
private theorem pos_col (c : Dev nD) (i : Fin 2) (p : Fin 2048) (R : Fin 4096) (hR : R.val = 2048 * i.val + p.val)
    (h : 4 * i.val + 3 < cfg0.N) :
    (scr (F := Ideal) m c (4 * i.val + 3) h).1 (ix2 p (0 : Fin 1))
      = (Finset.univ : Finset (Fin 4096)).fold max Cert.Spec.ninf (posRow m c R) := by
  have hi : i.val < 2 := i.isLt
  have h2 : 4 * i.val + 2 < cfg0.N := Nat.lt_of_succ_lt h
  have h1 : 4 * i.val + 1 < cfg0.N := Nat.lt_of_succ_lt h2
  have h0 : 4 * i.val < cfg0.N := Nat.lt_of_succ_lt h1
  have s3 : (scr (F := Ideal) m c (4 * i.val + 3) h).1 (ix2 p (0 : Fin 1))
      = max ((scr (F := Ideal) m c (4 * i.val + 2) h2).1 (ix2 p (0 : Fin 1))) (Cert.Spec.blkMax (posRow m c R) 3) :=
    scr_fst_step m c (4 * i.val + 2) h (by omega) p R 3 (by omega) (by show 3 = (4 * i.val + 2 + 1) % 4; omega)
  have s2 : (scr (F := Ideal) m c (4 * i.val + 2) h2).1 (ix2 p (0 : Fin 1))
      = max ((scr (F := Ideal) m c (4 * i.val + 1) h1).1 (ix2 p (0 : Fin 1))) (Cert.Spec.blkMax (posRow m c R) 2) :=
    scr_fst_step m c (4 * i.val + 1) h2 (by omega) p R 2 (by omega) (by show 2 = (4 * i.val + 1 + 1) % 4; omega)
  have s1 : (scr (F := Ideal) m c (4 * i.val + 1) h1).1 (ix2 p (0 : Fin 1))
      = max ((scr (F := Ideal) m c (4 * i.val) h0).1 (ix2 p (0 : Fin 1))) (Cert.Spec.blkMax (posRow m c R) 1) :=
    scr_fst_step m c (4 * i.val) h1 (by omega) p R 1 (by omega) (by show 1 = (4 * i.val + 1) % 4; omega)
  have s0 : (scr (F := Ideal) m c (4 * i.val) h0).1 (ix2 p (0 : Fin 1))
      = max Cert.Spec.ninf (Cert.Spec.blkMax (posRow m c R) 0) :=
    scr_fst_reset m c (4 * i.val) h0 (by omega) p R 0 (by omega) (by show 0 = (4 * i.val) % 4; omega)
  rw [s3, s2, s1, s0, Cert.Spec.fold_max_blocks]

/-- Row `p` of the running minimum column there is the minimum over all 4096 columns of the masked distances along
    the same row: the four column blocks' minima folded in order into +inf. -/
private theorem neg_col (c : Dev nD) (i : Fin 2) (p : Fin 2048) (R : Fin 4096) (hR : R.val = 2048 * i.val + p.val)
    (h : 4 * i.val + 3 < cfg0.N) :
    (scr (F := Ideal) m c (4 * i.val + 3) h).2 (ix2 p (0 : Fin 1))
      = (Finset.univ : Finset (Fin 4096)).fold min Cert.Spec.pinf (negRow m c R) := by
  have hi : i.val < 2 := i.isLt
  have h2 : 4 * i.val + 2 < cfg0.N := Nat.lt_of_succ_lt h
  have h1 : 4 * i.val + 1 < cfg0.N := Nat.lt_of_succ_lt h2
  have h0 : 4 * i.val < cfg0.N := Nat.lt_of_succ_lt h1
  have s3 : (scr (F := Ideal) m c (4 * i.val + 3) h).2 (ix2 p (0 : Fin 1))
      = min ((scr (F := Ideal) m c (4 * i.val + 2) h2).2 (ix2 p (0 : Fin 1))) (Cert.Spec.blkMin (negRow m c R) 3) :=
    scr_snd_step m c (4 * i.val + 2) h (by omega) p R 3 (by omega) (by show 3 = (4 * i.val + 2 + 1) % 4; omega)
  have s2 : (scr (F := Ideal) m c (4 * i.val + 2) h2).2 (ix2 p (0 : Fin 1))
      = min ((scr (F := Ideal) m c (4 * i.val + 1) h1).2 (ix2 p (0 : Fin 1))) (Cert.Spec.blkMin (negRow m c R) 2) :=
    scr_snd_step m c (4 * i.val + 1) h2 (by omega) p R 2 (by omega) (by show 2 = (4 * i.val + 1 + 1) % 4; omega)
  have s1 : (scr (F := Ideal) m c (4 * i.val + 1) h1).2 (ix2 p (0 : Fin 1))
      = min ((scr (F := Ideal) m c (4 * i.val) h0).2 (ix2 p (0 : Fin 1))) (Cert.Spec.blkMin (negRow m c R) 1) :=
    scr_snd_step m c (4 * i.val) h1 (by omega) p R 1 (by omega) (by show 1 = (4 * i.val + 1) % 4; omega)
  have s0 : (scr (F := Ideal) m c (4 * i.val) h0).2 (ix2 p (0 : Fin 1))
      = min Cert.Spec.pinf (Cert.Spec.blkMin (negRow m c R) 0) :=
    scr_snd_reset m c (4 * i.val) h0 (by omega) p R 0 (by omega) (by show 0 = (4 * i.val) % 4; omega)
  rw [s3, s2, s1, s0, Cert.Spec.fold_min_blocks]

/-! ## The flattened results -/

/-- A column of 4096 rows read as a flat vector: entry `r` is the column's row `r`. -/
private theorem flat_apply {α : Type} (A : S4096x1.Idx → α) (r : Fin 4096) :
    shapeCast S4096 A shapeCasts_S4096x1_S4096 (ix1 r) = A (ix2 r (0 : Fin 1)) :=
  shapeCast_apply A shapeCasts_S4096x1_S4096 (ix1 r) (ix2 r (0 : Fin 1)) (by
    rw [Shape.rowMajor_val_two, Shape.rowMajor_val_one]
    show r.val * 1 + 0 = r.val
    omega)

theorem pos_eq (c : Dev nD) (r : Fin 4096) :
    shapeCast S4096 ((dats (F := Ideal) m 0 c).arrAt 6 cfg0.N) shapeCasts_S4096x1_S4096 (ix1 r)
      = Cert.Spec.pos (sqK (m ((c.tc : Thread nD τ).loc main_arg0))) (m ((c.tc : Thread nD τ).loc main_arg0)) (m ((c.tc : Thread nD τ).loc main_arg1)) r := by
  -- row r is row r mod 2048 of row block r / 2048
  rw [flat_apply, arrAt6_apply]
  have hi : r.val / 2048 < 2 := by have := r.isLt; omega
  exact pos_col m c ⟨r.val / 2048, hi⟩ ⟨r.val % 2048, Nat.mod_lt _ (by decide)⟩ r
    (by show r.val = 2048 * (r.val / 2048) + r.val % 2048; omega) _

theorem neg_eq (c : Dev nD) (r : Fin 4096) :
    shapeCast S4096 ((dats (F := Ideal) m 0 c).arrAt 7 cfg0.N) shapeCasts_S4096x1_S4096 (ix1 r)
      = Cert.Spec.neg (sqK (m ((c.tc : Thread nD τ).loc main_arg0))) (m ((c.tc : Thread nD τ).loc main_arg0)) (m ((c.tc : Thread nD τ).loc main_arg1)) r := by
  rw [flat_apply, arrAt7_apply]
  have hi : r.val / 2048 < 2 := by have := r.isLt; omega
  exact neg_col m c ⟨r.val / 2048, hi⟩ ⟨r.val % 2048, Nat.mod_lt _ (by decide)⟩ r
    (by show r.val = 2048 * (r.val / 2048) + r.val % 2048; omega) _

end Cert.KernelIdeal.Hand

end
-- ==== Proof.RefRead.lean ====
/-
  The reference program read one operation at a time: its two row reductions are the hardest positive and the
  hardest negative of each row.
-/
import proofs.«100962_j67207648247978_1_alg».proof.Proof.Gen.ReferenceIdeal.Run
import proofs.«100962_j67207648247978_1_alg».proof.Proof.Gen.ReferenceIdeal.Read
import proofs.«100962_j67207648247978_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The rows' squared norms, as the reference computes them. -/
def sqR (X : FVec Ideal S4096x2048 .f32) : FVec Ideal S4096 .f32 :=
  Host.reduceAdd (F := Ideal) (mulf X X) (constant (F := Ideal) S_ .f32 0x00000000#32) reducesTo_S4096x2048_S4096_d1 h_S_

/-! ## The literals -/

/-- The word 0x7F800000 is +∞. -/
private theorem pinf_top : FloatOps.ofBits (F := Ideal) .f32 0x7F800000#32 = (⊤ : EReal) := by
  simp [Ideal.ofBits, Ideal.ieee]

/-- The word 0xFF800000 is −∞. -/
private theorem ninf_bot : FloatOps.ofBits (F := Ideal) .f32 0xFF800000#32 = (⊥ : EReal) := by
  simp [Ideal.ofBits, Ideal.ieee]

/-- The reference's −∞ is the negation of +∞: the same element as the literal −∞. -/
private theorem neg_pinf : FloatOps.hostNegf (FloatOps.ofBits (F := Ideal) .f32 0x7F800000#32) = Cert.Spec.ninf := by
  rw [Ideal.hostNegf_def, Ideal.negf_def, pinf_top]
  show -(⊤ : EReal) = FloatOps.ofBits (F := Ideal) .f32 0xFF800000#32
  rw [ninf_bot]; exact EReal.neg_top

/-! ## The entries of the distance matrix -/

section Entries

variable (X : (⟨S4096x2048, .f32⟩ : BufTy).Contents (Elt Ideal)) (Y : (⟨S4096, .i32⟩ : BufTy).Contents (Elt Ideal))

/-- The row norms broadcast along the columns: entry (r, j) is the norm of row r. -/
private theorem sq_row (r j : Fin 4096) : val_main_v4 (F := Ideal) X (ix2 r j) = sqR X (ix1 r) := by
  rw [val_main_v4_apply, val_main_v2_apply]
  exact congrArg (sqR X) (funext fun a => Fin.ext (by match a with | ⟨0, _⟩ => rfl))

/-- The row norms broadcast along the rows: entry (r, j) is the norm of row j. -/
private theorem sq_col (r j : Fin 4096) : val_main_v5 (F := Ideal) X (ix2 r j) = sqR X (ix1 j) := by
  rw [val_main_v5_apply, val_main_v3_apply]
  exact congrArg (sqR X) (funext fun a => Fin.ext (by match a with | ⟨0, _⟩ => rfl))

/-- The product of X with its transpose: entry (r, j) is the inner product of rows r and j. -/
private theorem gram_entry (r j : Fin 4096) : val_main_v8 (F := Ideal) X (ix2 r j) = Cert.Spec.gram X r j := by
  rw [val_main_v8_apply]
  unfold Cert.Spec.gram
  refine Finset.sum_congr rfl fun k _ => ?_
  rw [val_main_v7_apply]
  have el : lidx_main_v8 (ix2 r j) k = ix2 r k :=
    funext fun a => Fin.ext (by match a with | ⟨0, _⟩ => rfl | ⟨1, _⟩ => rfl)
  have er : idx_main_v7 (ridx_main_v8 (ix2 r j) k) = ix2 j k :=
    funext fun a => Fin.ext (by match a with | ⟨0, _⟩ => rfl | ⟨1, _⟩ => rfl)
  rw [el, er]

/-- The clamped squared distance of rows r and j. -/
private theorem d2_entry (r j : Fin 4096) : val_main_v13 (F := Ideal) X (ix2 r j) = Cert.Spec.d2 (sqR X) X r j := by
  rw [val_main_v13_apply, val_main_v11_apply, val_main_v6_apply, val_main_v10_apply, sq_row, sq_col, gram_entry,
    val_main_v9_apply, val_main_cst_0_apply, val_main_v12_apply, val_main_cst_1_apply]
  rfl

/-- The distance of rows r and j. -/
private theorem dist_entry (r j : Fin 4096) : val_main_v20 (F := Ideal) X (ix2 r j) = Cert.Spec.dist (sqR X) X r j := by
  rw [val_main_v20_apply, val_main_v15_apply, val_main_v19_apply, val_main_v18_apply, val_main_v17_apply, d2_entry,
    val_main_v14_apply, val_main_cst_2_apply, val_main_v16_apply, val_main_cst_3_apply,
    val_main_call0_v1_apply, val_main_call0_v0_apply, val_main_cst_4_apply,
    val_main_call1_v1_apply, val_main_call1_v0_apply, val_main_cst_5_apply]
  rfl

/-- Whether rows r and j carry one label. -/
private theorem same_entry (r j : Fin 4096) : val_main_v25 (F := Ideal) Y (ix2 r j) = Cert.Spec.same Y r j := by
  rw [val_main_v25_apply, val_main_v23_apply, val_main_v21_apply, val_main_v24_apply, val_main_v22_apply]
  unfold Cert.Spec.same
  have el : idx_main_v21 (idx_main_v23 (ix2 r j)) = ix1 r := funext fun a => Fin.ext (by match a with | ⟨0, _⟩ => rfl)
  have er : idx_main_v22 (idx_main_v24 (ix2 r j)) = ix1 j := funext fun a => Fin.ext (by match a with | ⟨0, _⟩ => rfl)
  rw [el, er]

/-! ## The two row reductions -/

/-- Dropping the column axis of a 4096 × 4096 index leaves its row. -/
private theorem reduces_col : S4096x4096.Reduces [1] S4096 := by decide

/-- Row r with the column k put back is the index (r, k). -/
private theorem lift_row (r : Fin 4096) (k : Fin (S4096x4096.size 1)) :
    reduces_col.lift (ix1 r) k = ix2 r (⟨k.val, k.isLt⟩ : Fin 4096) := by
  funext c; apply Fin.ext
  match c with
  | ⟨0, _⟩ => rfl
  | ⟨1, _⟩ => rfl

/-- The masked distances the maximum runs over: a row of another label contributes −∞. -/
private theorem pos_entry (r j : Fin 4096) :
    val_main_v27 (F := Ideal) X Y (ix2 r j)
      = Scalar.select (Cert.Spec.same Y r j) (Cert.Spec.dist (sqR X) X r j) Cert.Spec.ninf := by
  rw [val_main_v27_apply, same_entry, dist_entry, val_main_call2_v0_apply, val_main_v26_apply, val_main_cst_6_apply, neg_pinf]

/-- The masked distances the minimum runs over: a row of the same label contributes +∞. -/
private theorem neg_entry (r j : Fin 4096) :
    val_main_v29 (F := Ideal) X Y (ix2 r j)
      = Scalar.select (Cert.Spec.same Y r j) Cert.Spec.pinf (Cert.Spec.dist (sqR X) X r j) := by
  rw [val_main_v29_apply, same_entry, dist_entry, val_main_call3_v0_apply, val_main_cst_8_apply]

end Entries

theorem pos_eq (X : (⟨S4096x2048, .f32⟩ : BufTy).Contents (Elt Ideal)) (Y : (⟨S4096, .i32⟩ : BufTy).Contents (Elt Ideal)) (r : Fin 4096) :
    val_main_v28 (F := Ideal) X Y (ix1 r) = Cert.Spec.pos (sqR X) X Y r := by
  unfold val_main_v28
  rw [Host.reduce_eq_fold_single FloatOps.maximumf _ _ reducesTo_S4096x4096_S4096_d1 reduces_col h_S_]
  show (Finset.univ : Finset (Fin 4096)).fold max Cert.Spec.ninf (fun k => val_main_v27 (F := Ideal) X Y (reduces_col.lift (ix1 r) k)) = _
  unfold Cert.Spec.pos
  refine Finset.fold_congr fun j _ => ?_
  rw [lift_row]
  exact pos_entry X Y r j

theorem neg_eq (X : (⟨S4096x2048, .f32⟩ : BufTy).Contents (Elt Ideal)) (Y : (⟨S4096, .i32⟩ : BufTy).Contents (Elt Ideal)) (r : Fin 4096) :
    val_main_v30 (F := Ideal) X Y (ix1 r) = Cert.Spec.neg (sqR X) X Y r := by
  unfold val_main_v30
  rw [Host.reduce_eq_fold_single FloatOps.minimumf _ _ reducesTo_S4096x4096_S4096_d1 reduces_col h_S_]
  show (Finset.univ : Finset (Fin 4096)).fold min Cert.Spec.pinf (fun k => val_main_v29 (F := Ideal) X Y (reduces_col.lift (ix1 r) k)) = _
  unfold Cert.Spec.neg
  refine Finset.fold_congr fun j _ => ?_
  rw [lift_row]
  exact neg_entry X Y r j

end Cert.ReferenceIdeal.RefValue

end
-- ==== Proof.lean ====
/-
  The hard-triplet mining kernel against its reference.

  Both programs compute, from a matrix X of 4096 rows and a label per row, the mean over the rows i of
  max (pos i - neg i + margin) 0, where pos i is the greatest distance from row i to a row of its label and neg i the
  least distance to a row of another label (Spec.lean). The reference forms the whole 4096 x 4096 distance matrix and
  reduces its rows (RefRead.lean). The kernel program casts X to bf16 — the identity on the extended reals —, visits the
  matrix in 2 x 4 blocks of 2048 x 1024 and keeps each row's running maximum and minimum over the column blocks in two
  scratch columns (IdealData.lean; one point: IdealValuePoint.lean; the blocks' maxima folded in order are the row's
  maximum: SpecFold.lean, IdealValue.lean); the two result columns then go through the same host operations as the
  reference's. No law used needs finiteness: max and min are associative and commutative on the extended reals, and
  entry by entry the two distance matrices are one expression.

  The frames: the kernel region's body meets its proof data at every grid point (IdealBody.lean) and the program is run
  as host operations, the region, host operations (IdealRun.lean); the two windows that read the bf16 copy of X each
  hold half of that array's share. The word-level program is the same text in another namespace (BitsData.lean,
  BitsBody.lean, BitsRun.lean). The idealization rewrote nothing, so there is nothing to preserve.
-/
import proofs.«100962_j67207648247978_1_alg».proof.Defs
import proofs.«100962_j67207648247978_1_alg».proof.Proof.Gen.Kernel
import proofs.«100962_j67207648247978_1_alg».proof.Proof.Gen.KernelIdeal
import proofs.«100962_j67207648247978_1_alg».proof.Proof.Gen.ReferenceIdeal
import proofs.«100962_j67207648247978_1_alg».proof.Proof.Gen.Pre_finite_inputs
import proofs.«100962_j67207648247978_1_alg».proof.Proof.BitsRun
import proofs.«100962_j67207648247978_1_alg».proof.Proof.IdealRun
import proofs.«100962_j67207648247978_1_alg».proof.Proof.IdealValue
import proofs.«100962_j67207648247978_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two results are one function of the arguments -/

/-- The loss from two result columns whose rows are the hardest positives and negatives is the reference's result:
    flattened, the columns are the reference's two row reductions, and the remaining host operations are the same on
    both sides. -/
theorem result_eq (X : FVec Ideal Cert.KernelIdeal.S4096x2048 .f32) (Y : IVec Cert.KernelIdeal.S4096 32)
    (ap an : Vec Ideal Cert.KernelIdeal.S4096x1 .f32)
    (hp : ∀ r : Fin 4096, shapeCast Cert.KernelIdeal.S4096 ap Cert.KernelIdeal.Facts₀.shapeCasts_S4096x1_S4096 (ix1 r)
      = Cert.Spec.pos (Cert.KernelIdeal.Hand.sqK X) X Y r)
    (hn : ∀ r : Fin 4096, shapeCast Cert.KernelIdeal.S4096 an Cert.KernelIdeal.Facts₀.shapeCasts_S4096x1_S4096 (ix1 r)
      = Cert.Spec.neg (Cert.KernelIdeal.Hand.sqK X) X Y r) :
    Cert.KernelIdeal.Hand.tailVal (F := Ideal) ap an = Cert.ReferenceIdeal.Read.val_main_v37 (F := Ideal) X Y := by
  have h1 : shapeCast Cert.KernelIdeal.S4096 ap Cert.KernelIdeal.Facts₀.shapeCasts_S4096x1_S4096
      = Cert.ReferenceIdeal.Read.val_main_v28 (F := Ideal) X Y := by
    funext i
    obtain ⟨r, rfl⟩ : ∃ r : Fin 4096, i = ix1 r := ⟨i 0, eq_ix1 i⟩
    rw [hp r]
    exact (Cert.ReferenceIdeal.RefValue.pos_eq X Y r).symm
  have h2 : shapeCast Cert.KernelIdeal.S4096 an Cert.KernelIdeal.Facts₀.shapeCasts_S4096x1_S4096
      = Cert.ReferenceIdeal.Read.val_main_v30 (F := Ideal) X Y := by
    funext i
    obtain ⟨r, rfl⟩ : ∃ r : Fin 4096, i = ix1 r := ⟨i 0, eq_ix1 i⟩
    rw [hn r]
    exact (Cert.ReferenceIdeal.RefValue.neg_eq X Y r).symm
  unfold Cert.KernelIdeal.Hand.tailVal
  rw [h1, h2]
  rfl

/-! ## The claims -/

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel program ends at the loss of its two result columns, the reference at its composed
    term of arguments that agree: one function (`result_eq`). -/
theorem algebraic : Cert.algebraic_KernelIdeal_ReferenceIdeal := by
  intro m ρ m' ρ' _ hagree
  refine ⟨fun c => Cert.KernelIdeal.Hand.tailVal (F := Ideal)
      ((Cert.KernelIdeal.Hand.dats (F := Ideal) m 0 c).arrAt 6 Cert.KernelIdeal.cfg0.N)
      ((Cert.KernelIdeal.Hand.dats (F := Ideal) m 0 c).arrAt 7 Cert.KernelIdeal.cfg0.N),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  exact (result_eq _ _ _ _ (Cert.KernelIdeal.Hand.pos_eq m c) (Cert.KernelIdeal.Hand.neg_eq m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
